-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v15)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v15) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v79) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1024x64 : Shape := ⟨2, ![1024, 64]⟩
abbrev S1048576 : Shape := ⟨1, ![1048576]⟩
abbrev S128x64 : Shape := ⟨2, ![128, 64]⟩
abbrev S64 : Shape := ⟨1, ![64]⟩
abbrev S64x64 : Shape := ⟨2, ![64, 64]⟩
abbrev S64x1 : Shape := ⟨2, ![64, 1]⟩
abbrev S1 : Shape := ⟨1, ![1]⟩
abbrev S_ : Shape := ⟨0, ![]⟩

class Facts : Prop where
  bcast_S_S1024x64 : S_.BroadcastsInDim S1024x64 (![] : Fin 0 → Fin S1024x64.rank)
  reducesTo_S1024x64_S_d0_1 : S1024x64.ReducesTo [0, 1] S_
  h_S_ : 0 < S_.numel
  bcast_S_S1048576 : S_.BroadcastsInDim S1048576 (![] : Fin 0 → Fin S1048576.rank)
  reducesTo_S1048576_S_d0 : S1048576.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S64x64 : S_.BroadcastsInDim S64x64 (![] : Fin 0 → Fin S64x64.rank)
  reducesTo_S64x64_S_d0_1 : S64x64.ReducesTo [0, 1] S_
  bcast_S_S64x1 : S_.BroadcastsInDim S64x1 (![] : Fin 0 → Fin S64x1.rank)
  reducesTo_S64x1_S_d0_1 : S64x1.ReducesTo [0, 1] S_
  bcast_S_S1 : S_.BroadcastsInDim S1 (![] : Fin 0 → Fin S1.rank)
  reducesTo_S1_S_d0 : S1.ReducesTo [0] S_

variable [Facts]

def fn_part3 {F : FTy → Type} [FloatOps F] (main_arg11 : FVec F S1 .f32) (main_v48 : IVec S_ 1) (main_v49 : FVec F S64x1 .f32) (main_v50 : FVec F S64x1 .f32) : IVec S_ 1 :=
  let main_v51 : IVec S64x1 1 := cmpf .olt main_v49 main_v50
  let main_c_19 : IVec S_ 1 := constantI S_ 1 1#1
  let main_v52 : IVec S_ 1 := (fun x v => Host.reduce IntOp.andi x v reducesTo_S64x1_S_d0_1 h_S_) main_v51 main_c_19
  let main_v53 : IVec S_ 1 := andi main_v48 main_v52
  let main_v54 : FVec F S1 .f32 := Host.absf main_arg11
  let main_cst_20 : FVec F S_ .f32 := constant S_ .f32 0x7F800000#32
  let main_v55 : FVec F S1 .f32 := broadcastInDim S1 ![] bcast_S_S1 main_cst_20
  let main_v56 : IVec S1 1 := cmpf .olt main_v54 main_v55
  let main_c_21 : IVec S_ 1 := constantI S_ 1 1#1
  let main_v57 : IVec S_ 1 := (fun x v => Host.reduce IntOp.andi x v reducesTo_S1_S_d0 h_S_) main_v56 main_c_21
  let main_v58 : IVec S_ 1 := andi main_v53 main_v57
  main_v58

def fn_part2 {F : FTy → Type} [FloatOps F] (main_arg7 : FVec F S64 .f32) (main_arg8 : FVec F S64 .f32) (main_arg9 : FVec F S64 .f32) (main_arg10 : FVec F S64x1 .f32) (main_arg11 : FVec F S1 .f32) (main_v33 : IVec S_ 1) : IVec S_ 1 :=
  let main_v34 : FVec F S64 .f32 := Host.absf main_arg7
  let main_cst_12 : FVec F S_ .f32 := constant S_ .f32 0x7F800000#32
  let main_v35 : FVec F S64 .f32 := broadcastInDim S64 ![] bcast_S_S64 main_cst_12
  let main_v36 : IVec S64 1 := cmpf .olt main_v34 main_v35
  let main_c_13 : IVec S_ 1 := constantI S_ 1 1#1
  let main_v37 : IVec S_ 1 := (fun x v => Host.reduce IntOp.andi x v reducesTo_S64_S_d0 h_S_) main_v36 main_c_13
  let main_v38 : IVec S_ 1 := andi main_v33 main_v37
  let main_v39 : FVec F S64 .f32 := Host.absf main_arg8
  let main_cst_14 : FVec F S_ .f32 := constant S_ .f32 0x7F800000#32
  let main_v40 : FVec F S64 .f32 := broadcastInDim S64 ![] bcast_S_S64 main_cst_14
  let main_v41 : IVec S64 1 := cmpf .olt main_v39 main_v40
  let main_c_15 : IVec S_ 1 := constantI S_ 1 1#1
  let main_v42 : IVec S_ 1 := (fun x v => Host.reduce IntOp.andi x v reducesTo_S64_S_d0 h_S_) main_v41 main_c_15
  let main_v43 : IVec S_ 1 := andi main_v38 main_v42
  let main_v44 : FVec F S64 .f32 := Host.absf main_arg9
  let main_cst_16 : FVec F S_ .f32 := constant S_ .f32 0x7F800000#32
  let main_v45 : FVec F S64 .f32 := broadcastInDim S64 ![] bcast_S_S64 main_cst_16
  let main_v46 : IVec S64 1 := cmpf .olt main_v44 main_v45
  let main_c_17 : IVec S_ 1 := constantI S_ 1 1#1
  let main_v47 : IVec S_ 1 := (fun x v => Host.reduce IntOp.andi x v reducesTo_S64_S_d0 h_S_) main_v46 main_c_17
  let main_v48 : IVec S_ 1 := andi main_v43 main_v47
  let main_v49 : FVec F S64x1 .f32 := Host.absf main_arg10
  let main_cst_18 : FVec F S_ .f32 := constant S_ .f32 0x7F800000#32
  let main_v50 : FVec F S64x1 .f32 := broadcastInDim S64x1 ![] bcast_S_S64x1 main_cst_18
  fn_part3 (F := F) main_arg11 main_v48 main_v49 main_v50

def fn_part1 {F : FTy → Type} [FloatOps F] (main_arg4 : FVec F S64 .f32) (main_arg5 : FVec F S64 .f32) (main_arg6 : FVec F S64x64 .f32) (main_arg7 : FVec F S64 .f32) (main_arg8 : FVec F S64 .f32) (main_arg9 : FVec F S64 .f32) (main_arg10 : FVec F S64x1 .f32) (main_arg11 : FVec F S1 .f32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S64 .f32 := Host.absf main_arg4
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S64 .f32 := Host.absf main_arg5
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  let main_v29 : FVec F S64x64 .f32 := Host.absf main_arg6
  let main_cst_10 : FVec F S_ .f32 := constant S_ .f32 0x7F800000#32
  let main_v30 : FVec F S64x64 .f32 := broadcastInDim S64x64 ![] bcast_S_S64x64 main_cst_10
  let main_v31 : IVec S64x64 1 := cmpf .olt main_v29 main_v30
  let main_c_11 : IVec S_ 1 := constantI S_ 1 1#1
  let main_v32 : IVec S_ 1 := (fun x v => Host.reduce IntOp.andi x v reducesTo_S64x64_S_d0_1 h_S_) main_v31 main_c_11
  let main_v33 : IVec S_ 1 := andi main_v28 main_v32
  fn_part2 (F := F) main_arg7 main_arg8 main_arg9 main_arg10 main_arg11 main_v33

def fn {F : FTy → Type} [FloatOps F] (main_arg0 : FVec F S1024x64 .f32) (main_arg1 : FVec F S1048576 .f32) (main_arg2 : FVec F S128x64 .f32) (main_arg3 : FVec F S64 .f32) (main_arg4 : FVec F S64 .f32) (main_arg5 : FVec F S64 .f32) (main_arg6 : FVec F S64x64 .f32) (main_arg7 : FVec F S64 .f32) (main_arg8 : FVec F S64 .f32) (main_arg9 : FVec F S64 .f32) (main_arg10 : FVec F S64x1 .f32) (main_arg11 : FVec F S1 .f32) : IVec S_ 1 :=
  let main_v0 : FVec F S1024x64 .f32 := Host.absf main_arg0
  let main_cst : FVec F S_ .f32 := constant S_ .f32 0x7F800000#32
  let main_v1 : FVec F S1024x64 .f32 := broadcastInDim S1024x64 ![] bcast_S_S1024x64 main_cst
  let main_v2 : IVec S1024x64 1 := cmpf .olt main_v0 main_v1
  let main_c : IVec S_ 1 := constantI S_ 1 1#1
  let main_v3 : IVec S_ 1 := (fun x v => Host.reduce IntOp.andi x v reducesTo_S1024x64_S_d0_1 h_S_) main_v2 main_c
  let main_v4 : FVec F S1048576 .f32 := Host.absf main_arg1
  let main_cst_0 : FVec F S_ .f32 := constant S_ .f32 0x7F800000#32
  let main_v5 : FVec F S1048576 .f32 := broadcastInDim S1048576 ![] bcast_S_S1048576 main_cst_0
  let main_v6 : IVec S1048576 1 := cmpf .olt main_v4 main_v5
  let main_c_1 : IVec S_ 1 := constantI S_ 1 1#1
  let main_v7 : IVec S_ 1 := (fun x v => Host.reduce IntOp.andi x v reducesTo_S1048576_S_d0 h_S_) main_v6 main_c_1
  let main_v8 : IVec S_ 1 := andi main_v3 main_v7
  let main_v9 : FVec F S128x64 .f32 := Host.absf main_arg2
  let main_cst_2 : FVec F S_ .f32 := constant S_ .f32 0x7F800000#32
  let main_v10 : FVec F S128x64 .f32 := broadcastInDim S128x64 ![] bcast_S_S128x64 main_cst_2
  let main_v11 : IVec S128x64 1 := cmpf .olt main_v9 main_v10
  let main_c_3 : IVec S_ 1 := constantI S_ 1 1#1
  let main_v12 : IVec S_ 1 := (fun x v => Host.reduce IntOp.andi x v reducesTo_S128x64_S_d0_1 h_S_) main_v11 main_c_3
  let main_v13 : IVec S_ 1 := andi main_v8 main_v12
  let main_v14 : FVec F S64 .f32 := Host.absf main_arg3
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg4 main_arg5 main_arg6 main_arg7 main_arg8 main_arg9 main_arg10 main_arg11 main_v13 main_v16
-- ==== Kernel.lean ====
abbrev S1024x64 : Shape := ⟨2, ![1024, 64]⟩
abbrev S1048576 : Shape := ⟨1, ![1048576]⟩
abbrev S128x64 : Shape := ⟨2, ![128, 64]⟩
abbrev S64 : Shape := ⟨1, ![64]⟩
abbrev S64x64 : Shape := ⟨2, ![64, 64]⟩
abbrev S64x1 : Shape := ⟨2, ![64, 1]⟩
abbrev S1 : Shape := ⟨1, ![1]⟩
abbrev S1x64 : Shape := ⟨2, ![1, 64]⟩
abbrev S1024x1024 : Shape := ⟨2, ![1024, 1024]⟩
abbrev S1x1 : Shape := ⟨2, ![1, 1]⟩
abbrev S128x128 : Shape := ⟨2, ![128, 128]⟩
abbrev S128x1x64 : Shape := ⟨3, ![128, 1, 64]⟩
abbrev S1x128x64 : Shape := ⟨3, ![1, 128, 64]⟩
abbrev S128x128x64 : Shape := ⟨3, ![128, 128, 64]⟩
abbrev S1x1x64 : Shape := ⟨3, ![1, 1, 64]⟩
abbrev S128x128x1 : Shape := ⟨3, ![128, 128, 1]⟩
abbrev S16384x64 : Shape := ⟨2, ![16384, 64]⟩
abbrev S16384 : Shape := ⟨1, ![16384]⟩
abbrev S16384x1 : Shape := ⟨2, ![16384, 1]⟩

abbrev nBuf : Space → Nat
  | .hbm => 28
  | .vmem => 16
  | .smem => 0
  | _ => 0

abbrev bufTy : (tb : Table) → Fin (tcTables nBuf tb) → BufTy
  | .hbm, ⟨0, _⟩ => ⟨S1024x64, .f32⟩
  | .hbm, ⟨1, _⟩ => ⟨S1048576, .f32⟩
  | .hbm, ⟨2, _⟩ => ⟨S128x64, .f32⟩
  | .hbm, ⟨3, _⟩ => ⟨S64, .f32⟩
  | .hbm, ⟨4, _⟩ => ⟨S64, .f32⟩
  | .hbm, ⟨5, _⟩ => ⟨S64, .f32⟩
  | .hbm, ⟨6, _⟩ => ⟨S64x64, .f32⟩
  | .hbm, ⟨7, _⟩ => ⟨S64, .f32⟩
  | .hbm, ⟨8, _⟩ => ⟨S64, .f32⟩
  | .hbm, ⟨9, _⟩ => ⟨S64, .f32⟩
  | .hbm, ⟨10, _⟩ => ⟨S64x1, .f32⟩
  | .hbm, ⟨11, _⟩ => ⟨S1, .f32⟩
  | .hbm, ⟨12, _⟩ => ⟨S64x64, .f32⟩
  | .hbm, ⟨13, _⟩ => ⟨S64x64, .f32⟩
  | .hbm, ⟨14, _⟩ => ⟨S1024x64, .f32⟩
  | .hbm, ⟨15, _⟩ => ⟨S1x64, .f32⟩
  | .hbm, ⟨16, _⟩ => ⟨S1024x64, .f32⟩
  | .hbm, ⟨17, _⟩ => ⟨S1024x64, .f32⟩
  | .hbm, ⟨18, _⟩ => ⟨S1024x64, .f32⟩
  | .hbm, ⟨19, _⟩ => ⟨S1024x1024, .f32⟩
  | .hbm, ⟨20, _⟩ => ⟨S1x64, .f32⟩
  | .hbm, ⟨21, _⟩ => ⟨S1x64, .f32⟩
  | .hbm, ⟨22, _⟩ => ⟨S1x64, .f32⟩
  | .hbm, ⟨23, _⟩ => ⟨S1x64, .f32⟩
  | .hbm, ⟨24, _⟩ => ⟨S1x64, .f32⟩
  | .hbm, ⟨25, _⟩ => ⟨S1x1, .f32⟩
  | .hbm, ⟨26, _⟩ => ⟨S1024x1024, .f32⟩
  | .hbm, ⟨27, _⟩ => ⟨S1048576, .f32⟩
  | .local _ .vmem, ⟨0, _⟩ => ⟨S128x64, .f32⟩
  | .local _ .vmem, ⟨1, _⟩ => ⟨S128x64, .f32⟩
  | .local _ .vmem, ⟨2, _⟩ => ⟨S128x64, .f32⟩
  | .local _ .vmem, ⟨3, _⟩ => ⟨S128x64, .f32⟩
  | .local _ .vmem, ⟨4, _⟩ => ⟨S128x128, .f32⟩
  | .local _ .vmem, ⟨5, _⟩ => ⟨S128x128, .f32⟩
  | .local _ .vmem, ⟨6, _⟩ => ⟨S64x64, .f32⟩
  | .local _ .vmem, ⟨7, _⟩ => ⟨S1x64, .f32⟩
  | .local _ .vmem, ⟨8, _⟩ => ⟨S1x64, .f32⟩
  | .local _ .vmem, ⟨9, _⟩ => ⟨S1x64, .f32⟩
  | .local _ .vmem, ⟨10, _⟩ => ⟨S64x1, .f32⟩
  | .local _ .vmem, ⟨11, _⟩ => ⟨S1x1, .f32⟩
  | .local _ .vmem, ⟨12, _⟩ => ⟨S1x64, .f32⟩
  | .local _ .vmem, ⟨13, _⟩ => ⟨S1x64, .f32⟩
  | .local _ .vmem, ⟨14, _⟩ => ⟨S128x128, .f32⟩
  | .local _ .vmem, ⟨15, _⟩ => ⟨S128x128, .f32⟩
  | _, _ => ⟨S1024x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg11_0 : Ref sig .tc := ⟨.vmem, 14, rfl⟩
abbrev cc0_stg11_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem11_0 : DmaSem sig := 14
abbrev cc0_sem11_1 : DmaSem sig := 15

abbrev nD : Nat := 1
abbrev τ : Topo := Topo.v7x

variable {F : FTy → Type} [FloatOps F]

abbrev grid0 : Pipeline.Grid := ⟨2, ![8, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S128x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S128x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S128x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S64x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S64x1 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x1 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1x64 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S1x64 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 2 → Memref sig .tc .vmem S128x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

class Facts₀ : Prop where
  slices_S128x64_S64x64_0_0 : S128x64.Slices ![0, 0] S64x64
  slices_S128x64_S64x64_64_0 : S128x64.Slices ![64, 0] S64x64
  bcast_S64_S1x64_1 : S64.BroadcastsInDim S1x64 (![1] : Fin 1 → Fin S1x64.rank)
  bcast_S1x64_S1024x64_0_1 : S1x64.BroadcastsInDim S1024x64 (![0, 1] : Fin 2 → Fin S1024x64.rank)
  shapeCasts_S1048576_S1024x1024 : S1048576.ShapeCasts S1024x1024
  shapeCasts_S64_S1x64 : S64.ShapeCasts S1x64
  shapeCasts_S1_S1x1 : S1.ShapeCasts S1x1
  inb_S128x64_S128x64_0_0 : ∀ a, (![0, 0] : Fin 2 → Nat) a + S128x64.size a ≤ S128x64.size a
  h_S128x64 : 0 < S128x64.numel
  shapeCasts_S128x64_S128x64 : S128x64.ShapeCasts S128x64
  shapeCasts_S128x64_S128x1x64 : S128x64.ShapeCasts S128x1x64
  shapeCasts_S128x64_S1x128x64 : S128x64.ShapeCasts S1x128x64
  broadcasts_S128x1x64_S128x128x64 : S128x1x64.Broadcasts S128x128x64
  broadcasts_S1x128x64_S128x128x64 : S1x128x64.Broadcasts S128x128x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  shapeCasts_S1x64_S1x1x64 : S1x64.ShapeCasts S1x1x64
  reduces_S128x128x64_S128x128 : S128x128x64.Reduces [2] S128x128
  shapeCasts_S128x128_S128x128x1 : S128x128.ShapeCasts S128x128x1
  broadcasts_S128x128x1_S128x128x64 : S128x128x1.Broadcasts S128x128x64
  broadcasts_S1x1x64_S128x128x64 : S1x1x64.Broadcasts S128x128x64
  shapeCasts_S128x128x64_S16384x64 : S128x128x64.ShapeCasts S16384x64
  inb_S64x64_S64x64_0_0 : ∀ a, (![0, 0] : Fin 2 → Nat) a + S64x64.size a ≤ S64x64.size a
  h_S64x64 : 0 < S64x64.numel
  broadcasts_S1x64_S16384x64 : S1x64.Broadcasts S16384x64
  reduces_S16384x64_S16384 : S16384x64.Reduces [1] S16384
  shapeCasts_S16384_S16384x1 : S16384.ShapeCasts S16384x1
  broadcasts_S16384x1_S16384x64 : S16384x1.Broadcasts S16384x64
  inb_S64x1_S64x1_0_0 : ∀ a, (![0, 0] : Fin 2 → Nat) a + S64x1.size a ≤ S64x1.size a
  h_S64x1 : 0 < S64x1.numel
  inb_S1x1_S1x1_0_0 : ∀ a, (![0, 0] : Fin 2 → Nat) a + S1x1.size a ≤ S1x1.size a
  h_S1x1 : 0 < S1x1.numel
  shapeCasts_S1x1_S1x1 : S1x1.ShapeCasts S1x1
  shapeCasts_S16384x1_S16384 : S16384x1.ShapeCasts S16384
  inpos_S1x1_p0_0 : ∀ a, (![0, 0] : Fin 2 → Nat) a < S1x1.size a
  shapeCasts_S16384_S128x128 : S16384.ShapeCasts S128x128
  iota_S128x128_d0_w32 : S128x128.Iotas .tc 32 [0]
  iota_S128x128_d1_w32 : S128x128.Iotas .tc 32 [1]
  inb_S128x128_S128x128_0_0 : ∀ a, (![0, 0] : Fin 2 → Nat) a + S128x128.size a ≤ S128x128.size a
  h_S128x128 : 0 < S128x128.numel
  shapeCasts_S128x128_S128x128 : S128x128.ShapeCasts S128x128
  shapeCasts_S1024x1024_S1048576 : S1024x1024.ShapeCasts S1048576
  dot_S1024x64_S64x64_S1024x64_1_0_0_1_n_n_wf : DotDims.WF S1024x64 S64x64 S1024x64 [1] [0] [0] [1] [] []
  dot_S16384x64_S64x64_S16384x64_1_0_0_1_n_n_wf : DotDims.WF S16384x64 S64x64 S16384x64 [1] [0] [0] [1] [] []
  dot_S16384x64_S64x1_S16384x1_1_0_0_1_n_n_wf : DotDims.WF S16384x64 S64x1 S16384x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S128x64.size a ≤ S1024x64.size a
  hwx0_0 : ∀ i : grid0.Coords, EltTy.bits .f32 = 32 ∨ (Rect.block (s := S1024x64) S128x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S128x64.size a ≤ S1024x64.size a
  hwx0_1 : ∀ i : grid0.Coords, EltTy.bits .f32 = 32 ∨ (Rect.block (s := S1024x64) S128x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S1024x1024.size a
  hwx0_2 : ∀ i : grid0.Coords, EltTy.bits .f32 = 32 ∨ (Rect.block (s := S1024x1024) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S64x64.size a ≤ S64x64.size a
  hwx0_3 : ∀ i : grid0.Coords, EltTy.bits .f32 = 32 ∨ (Rect.block (s := S64x64) S64x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x64.size a ≤ S1x64.size a
  hwx0_4 : ∀ i : grid0.Coords, EltTy.bits .f32 = 32 ∨ (Rect.block (s := S1x64) S1x64.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x64.size a ≤ S1x64.size a
  hwx0_5 : ∀ i : grid0.Coords, EltTy.bits .f32 = 32 ∨ (Rect.block (s := S1x64) S1x64.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x64.size a ≤ S1x64.size a
  hwx0_6 : ∀ i : grid0.Coords, EltTy.bits .f32 = 32 ∨ (Rect.block (s := S1x64) S1x64.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S64x1.size a ≤ S64x1.size a
  hwx0_7 : ∀ i : grid0.Coords, EltTy.bits .f32 = 32 ∨ (Rect.block (s := S64x1) S64x1.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x1.size a ≤ S1x1.size a
  hwx0_8 : ∀ i : grid0.Coords, EltTy.bits .f32 = 32 ∨ (Rect.block (s := S1x1) S1x1.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S1x64.size a ≤ S1x64.size a
  hwx0_9 : ∀ i : grid0.Coords, EltTy.bits .f32 = 32 ∨ (Rect.block (s := S1x64) S1x64.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S1x64.size a ≤ S1x64.size a
  hwx0_10 : ∀ i : grid0.Coords, EltTy.bits .f32 = 32 ∨ (Rect.block (s := S1x64) S1x64.size (cc0_transform_10 i) (hinb0_10 i)).WholeWords (EltTy.packing .f32)
  hstage0_11 : ∀ j, (stage0_11 j).IsWhole
  nbuf0_11 : grid0.bufCount reads0_11 false = 2
  hreads0_11 : ∀ i i' : grid0.Coords, (∀ a, reads0_11 a = true → i a = i' a) → cc0_transform_11 i = cc0_transform_11 i'
  hinb0_11 : ∀ (i : grid0.Coords) a, (cc0_transform_11 i a + 1) * S128x128.size a ≤ S1024x1024.size a
  hwx0_11 : ∀ i : grid0.Coords, EltTy.bits .f32 = 32 ∨ (Rect.block (s := S1024x1024) S128x128.size (cc0_transform_11 i) (hinb0_11 i)).WholeWords (EltTy.packing .f32)

variable [Facts₀]

def dot_S1024x64_S64x64_S1024x64_1_0_0_1_n_n : DotDims S1024x64 S64x64 S1024x64 where
  lhsContracting := [1]
  rhsContracting := [0]
  lhsNonContracting := [0]
  rhsNonContracting := [1]
  lhsBatch := []
  rhsBatch := []
  wf := dot_S1024x64_S64x64_S1024x64_1_0_0_1_n_n_wf
def dot_S16384x64_S64x64_S16384x64_1_0_0_1_n_n : DotDims S16384x64 S64x64 S16384x64 where
  lhsContracting := [1]
  rhsContracting := [0]
  lhsNonContracting := [0]
  rhsNonContracting := [1]
  lhsBatch := []
  rhsBatch := []
  wf := dot_S16384x64_S64x64_S16384x64_1_0_0_1_n_n_wf
def dot_S16384x64_S64x1_S16384x1_1_0_0_1_n_n : DotDims S16384x64 S64x1 S16384x1 where
  lhsContracting := [1]
  rhsContracting := [0]
  lhsNonContracting := [0]
  rhsNonContracting := [1]
  lhsBatch := []
  rhsBatch := []
  wf := dot_S16384x64_S64x1_S16384x1_1_0_0_1_n_n_wf

abbrev win0_0 : Pipeline.Window sig grid0 :=
  Pipeline.Window.ofSpec (Memref.whole main_v5) S128x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v6) S128x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v7) S128x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg6) S64x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v12) S1x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v10) S1x64.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v11) S1x64.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg10) S64x1.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v13) S1x1.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v8) S1x64.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v9) S1x64.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_v14) S128x128.size cc0_transform_11 reads0_11 true false 2 stage0_11 sem0_11
    hrank0 hreads0_11 hinb0_11 nbuf0_11 (Memref.isWhole_whole _) hwx0_11 hstage0_11

abbrev win0 : Fin 12 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | ⟨_ + 12, h⟩ => absurd h (Nat.not_lt.2 (Nat.le_add_left _ _))
abbrev spec0 : Fin 12 → Pipeline.WinSpec sig grid0.rank := fun w => (win0 w).toWinSpec

class Facts : Prop extends Facts₀ where

variable [Facts]
-- ==== ReferenceIdeal.lean ====
abbrev S1024x64 : Shape := ⟨2, ![1024, 64]⟩
abbrev S1048576 : Shape := ⟨1, ![1048576]⟩
abbrev S128x64 : Shape := ⟨2, ![128, 64]⟩
abbrev S64 : Shape := ⟨1, ![64]⟩
abbrev S64x64 : Shape := ⟨2, ![64, 64]⟩
abbrev S64x1 : Shape := ⟨2, ![64, 1]⟩
abbrev S1 : Shape := ⟨1, ![1]⟩
abbrev S1024x1x64 : Shape := ⟨3, ![1024, 1, 64]⟩
abbrev S1024x1024x64 : Shape := ⟨3, ![1024, 1024, 64]⟩
abbrev S1x1024x64 : Shape := ⟨3, ![1, 1024, 64]⟩
abbrev S1024x1024x128 : Shape := ⟨3, ![1024, 1024, 128]⟩
abbrev S1048576x128 : Shape := ⟨2, ![1048576, 128]⟩
abbrev S1048576x64 : Shape := ⟨2, ![1048576, 64]⟩
abbrev S1x64 : Shape := ⟨2, ![1, 64]⟩
abbrev S_ : Shape := ⟨0, ![]⟩
abbrev S1048576x1 : Shape := ⟨2, ![1048576, 1]⟩
abbrev S1x1 : Shape := ⟨2, ![1, 1]⟩
abbrev S1024x1024 : Shape := ⟨2, ![1024, 1024]⟩

abbrev nBuf : Space → Nat
  | .hbm => 108
  | .vmem => 0
  | .smem => 0
  | _ => 0

abbrev bufTy : (tb : Table) → Fin (tcTables nBuf tb) → BufTy
  | .hbm, ⟨0, _⟩ => ⟨S1024x64, .f32⟩
  | .hbm, ⟨1, _⟩ => ⟨S1048576, .f32⟩
  | .hbm, ⟨2, _⟩ => ⟨S128x64, .f32⟩
  | .hbm, ⟨3, _⟩ => ⟨S64, .f32⟩
  | .hbm, ⟨4, _⟩ => ⟨S64, .f32⟩
  | .hbm, ⟨5, _⟩ => ⟨S64, .f32⟩
  | .hbm, ⟨6, _⟩ => ⟨S64x64, .f32⟩
  | .hbm, ⟨7, _⟩ => ⟨S64, .f32⟩
  | .hbm, ⟨8, _⟩ => ⟨S64, .f32⟩
  | .hbm, ⟨9, _⟩ => ⟨S64, .f32⟩
  | .hbm, ⟨10, _⟩ => ⟨S64x1, .f32⟩
  | .hbm, ⟨11, _⟩ => ⟨S1, .f32⟩
  | .hbm, ⟨12, _⟩ => ⟨S1024x1x64, .f32⟩
  | .hbm, ⟨13, _⟩ => ⟨S1024x1024x64, .f32⟩
  | .hbm, ⟨14, _⟩ => ⟨S1x1024x64, .f32⟩
  | .hbm, ⟨15, _⟩ => ⟨S1024x1024x64, .f32⟩
  | .hbm, ⟨16, _⟩ => ⟨S1024x1024x128, .f32⟩
  | .hbm, ⟨17, _⟩ => ⟨S1048576x128, .f32⟩
  | .hbm, ⟨18, _⟩ => ⟨S1048576x64, .f32⟩
  | .hbm, ⟨19, _⟩ => ⟨S1x64, .f32⟩
  | .hbm, ⟨20, _⟩ => ⟨S1048576x64, .f32⟩
  | .hbm, ⟨21, _⟩ => ⟨S1048576x64, .f32⟩
  | .hbm, ⟨22, _⟩ => ⟨S_, .f32⟩
  | .hbm, ⟨23, _⟩ => ⟨S1048576, .f32⟩
  | .hbm, ⟨24, _⟩ => ⟨S1048576x1, .f32⟩
  | .hbm, ⟨25, _⟩ => ⟨S_, .f32⟩
  | .hbm, ⟨26, _⟩ => ⟨S1048576x1, .f32⟩
  | .hbm, ⟨27, _⟩ => ⟨S1048576x1, .f32⟩
  | .hbm, ⟨28, _⟩ => ⟨S1048576x64, .f32⟩
  | .hbm, ⟨29, _⟩ => ⟨S1048576x64, .f32⟩
  | .hbm, ⟨30, _⟩ => ⟨S1048576x64, .f32⟩
  | .hbm, ⟨31, _⟩ => ⟨S_, .f32⟩
  | .hbm, ⟨32, _⟩ => ⟨S1048576, .f32⟩
  | .hbm, ⟨33, _⟩ => ⟨S1048576x1, .f32⟩
  | .hbm, ⟨34, _⟩ => ⟨S_, .f32⟩
  | .hbm, ⟨35, _⟩ => ⟨S1048576x1, .f32⟩
  | .hbm, ⟨36, _⟩ => ⟨S1048576x1, .f32⟩
  | .hbm, ⟨37, _⟩ => ⟨S1048576x64, .f32⟩
  | .hbm, ⟨38, _⟩ => ⟨S1048576x64, .f32⟩
  | .hbm, ⟨39, _⟩ => ⟨S_, .f32⟩
  | .hbm, ⟨40, _⟩ => ⟨S1048576x1, .f32⟩
  | .hbm, ⟨41, _⟩ => ⟨S1048576x1, .f32⟩
  | .hbm, ⟨42, _⟩ => ⟨S1048576x1, .f32⟩
  | .hbm, ⟨43, _⟩ => ⟨S1048576x64, .f32⟩
  | .hbm, ⟨44, _⟩ => ⟨S1048576x64, .f32⟩
  | .hbm, ⟨45, _⟩ => ⟨S1x64, .f32⟩
  | .hbm, ⟨46, _⟩ => ⟨S1048576x64, .f32⟩
  | .hbm, ⟨47, _⟩ => ⟨S1048576x64, .f32⟩
  | .hbm, ⟨48, _⟩ => ⟨S1x64, .f32⟩
  | .hbm, ⟨49, _⟩ => ⟨S1048576x64, .f32⟩
  | .hbm, ⟨50, _⟩ => ⟨S1048576x64, .f32⟩
  | .hbm, ⟨51, _⟩ => ⟨S_, .f32⟩
  | .hbm, ⟨52, _⟩ => ⟨S1048576x64, .f32⟩
  | .hbm, ⟨53, _⟩ => ⟨S1048576x64, .f32⟩
  | .hbm, ⟨54, _⟩ => ⟨S1048576x64, .f32⟩
  | .hbm, ⟨55, _⟩ => ⟨S1x64, .f32⟩
  | .hbm, ⟨56, _⟩ => ⟨S1048576x64, .f32⟩
  | .hbm, ⟨57, _⟩ => ⟨S1048576x64, .f32⟩
  | .hbm, ⟨58, _⟩ => ⟨S_, .f32⟩
  | .hbm, ⟨59, _⟩ => ⟨S1048576, .f32⟩
  | .hbm, ⟨60, _⟩ => ⟨S1048576x1, .f32⟩
  | .hbm, ⟨61, _⟩ => ⟨S_, .f32⟩
  | .hbm, ⟨62, _⟩ => ⟨S1048576x1, .f32⟩
  | .hbm, ⟨63, _⟩ => ⟨S1048576x1, .f32⟩
  | .hbm, ⟨64, _⟩ => ⟨S1048576x64, .f32⟩
  | .hbm, ⟨65, _⟩ => ⟨S1048576x64, .f32⟩
  | .hbm, ⟨66, _⟩ => ⟨S1048576x64, .f32⟩
  | .hbm, ⟨67, _⟩ => ⟨S_, .f32⟩
  | .hbm, ⟨68, _⟩ => ⟨S1048576, .f32⟩
  | .hbm, ⟨69, _⟩ => ⟨S1048576x1, .f32⟩
  | .hbm, ⟨70, _⟩ => ⟨S_, .f32⟩
  | .hbm, ⟨71, _⟩ => ⟨S1048576x1, .f32⟩
  | .hbm, ⟨72, _⟩ => ⟨S1048576x1, .f32⟩
  | .hbm, ⟨73, _⟩ => ⟨S1048576x64, .f32⟩
  | .hbm, ⟨74, _⟩ => ⟨S1048576x64, .f32⟩
  | .hbm, ⟨75, _⟩ => ⟨S_, .f32⟩
  | .hbm, ⟨76, _⟩ => ⟨S1048576x1, .f32⟩
  | .hbm, ⟨77, _⟩ => ⟨S1048576x1, .f32⟩
  | .hbm, ⟨78, _⟩ => ⟨S1048576x1, .f32⟩
  | .hbm, ⟨79, _⟩ => ⟨S1048576x64, .f32⟩
  | .hbm, ⟨80, _⟩ => ⟨S1048576x64, .f32⟩
  | .hbm, ⟨81, _⟩ => ⟨S1x64, .f32⟩
  | .hbm, ⟨82, _⟩ => ⟨S1048576x64, .f32⟩
  | .hbm, ⟨83, _⟩ => ⟨S1048576x64, .f32⟩
  | .hbm, ⟨84, _⟩ => ⟨S1x64, .f32⟩
  | .hbm, ⟨85, _⟩ => ⟨S1048576x64, .f32⟩
  | .hbm, ⟨86, _⟩ => ⟨S1048576x64, .f32⟩
  | .hbm, ⟨87, _⟩ => ⟨S_, .f32⟩
  | .hbm, ⟨88, _⟩ => ⟨S1048576x64, .f32⟩
  | .hbm, ⟨89, _⟩ => ⟨S1048576x64, .f32⟩
  | .hbm, ⟨90, _⟩ => ⟨S1048576x1, .f32⟩
  | .hbm, ⟨91, _⟩ => ⟨S1x1, .f32⟩
  | .hbm, ⟨92, _⟩ => ⟨S1048576x1, .f32⟩
  | .hbm, ⟨93, _⟩ => ⟨S1048576x1, .f32⟩
  | .hbm, ⟨94, _⟩ => ⟨S1048576, .f32⟩
  | .hbm, ⟨95, _⟩ => ⟨S1024x1024, .i32⟩
  | .hbm, ⟨96, _⟩ => ⟨S1024x1024, .i32⟩
  | .hbm, ⟨97, _⟩ => ⟨S_, .i32⟩
  | .hbm, ⟨98, _⟩ => ⟨S1024x1024, .i32⟩
  | .hbm, ⟨99, _⟩ => ⟨S1024x1024, .i32⟩
  | .hbm, ⟨100, _⟩ => ⟨S1024x1024, .i1⟩
  | .hbm, ⟨101, _⟩ => ⟨S1024x1024, .f32⟩
  | .hbm, ⟨102, _⟩ => ⟨S1048576, .f32⟩
  | .hbm, ⟨103, _⟩ => ⟨S_, .f32⟩
  | .hbm, ⟨104, _⟩ => ⟨S1048576, .f32⟩
  | .hbm, ⟨105, _⟩ => ⟨S1048576, .f32⟩
  | .hbm, ⟨106, _⟩ => ⟨S1048576, .f32⟩
  | .hbm, ⟨107, _⟩ => ⟨S1048576, .f32⟩
  | _, _ => ⟨S1024x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_cst : Ref sig .tc := ⟨.hbm, 22, rfl⟩
abbrev main_v10 : Ref sig .tc := ⟨.hbm, 23, rfl⟩
abbrev main_v11 : Ref sig .tc := ⟨.hbm, 24, rfl⟩
abbrev main_cst_0 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_cst_1 : Ref sig .tc := ⟨.hbm, 31, rfl⟩
abbrev main_v17 : Ref sig .tc := ⟨.hbm, 32, rfl⟩
abbrev main_v18 : Ref sig .tc := ⟨.hbm, 33, rfl⟩
abbrev main_cst_2 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_cst_3 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_call0_cst : Ref sig .tc := ⟨.hbm, 51, rfl⟩
abbrev main_call0_v0 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_cst_4 : Ref sig .tc := ⟨.hbm, 58, rfl⟩
abbrev main_v39 : Ref sig .tc := ⟨.hbm, 59, rfl⟩
abbrev main_v40 : Ref sig .tc := ⟨.hbm, 60, rfl⟩
abbrev main_cst_5 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_cst_6 : Ref sig .tc := ⟨.hbm, 67, rfl⟩
abbrev main_v46 : Ref sig .tc := ⟨.hbm, 68, rfl⟩
abbrev main_v47 : Ref sig .tc := ⟨.hbm, 69, rfl⟩
abbrev main_cst_7 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_cst_8 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_call1_cst : Ref sig .tc := ⟨.hbm, 87, rfl⟩
abbrev main_call1_v0 : Ref sig .tc := ⟨.hbm, 88, rfl⟩
abbrev main_v63 : Ref sig .tc := ⟨.hbm, 89, rfl⟩
abbrev main_v64 : Ref sig .tc := ⟨.hbm, 90, rfl⟩
abbrev main_v65 : Ref sig .tc := ⟨.hbm, 91, rfl⟩
abbrev main_v66 : Ref sig .tc := ⟨.hbm, 92, rfl⟩
abbrev main_v67 : Ref sig .tc := ⟨.hbm, 93, rfl⟩
abbrev main_v68 : Ref sig .tc := ⟨.hbm, 94, rfl⟩
abbrev main_v69 : Ref sig .tc := ⟨.hbm, 95, rfl⟩
abbrev main_v70 : Ref sig .tc := ⟨.hbm, 96, rfl⟩
abbrev main_c : Ref sig .tc := ⟨.hbm, 97, rfl⟩
abbrev main_v71 : Ref sig .tc := ⟨.hbm, 98, rfl⟩
abbrev main_v72 : Ref sig .tc := ⟨.hbm, 99, rfl⟩
abbrev main_v73 : Ref sig .tc := ⟨.hbm, 100, rfl⟩
abbrev main_v74 : Ref sig .tc := ⟨.hbm, 101, rfl⟩
abbrev main_v75 : Ref sig .tc := ⟨.hbm, 102, rfl⟩
abbrev main_cst_9 : Ref sig .tc := ⟨.hbm, 103, rfl⟩
abbrev main_v76 : Ref sig .tc := ⟨.hbm, 104, rfl⟩
abbrev main_v77 : Ref sig .tc := ⟨.hbm, 105, rfl⟩
abbrev main_v78 : Ref sig .tc := ⟨.hbm, 106, rfl⟩
abbrev main_v79 : Ref sig .tc := ⟨.hbm, 107, rfl⟩

abbrev nD : Nat := 1
abbrev τ : Topo := Topo.v7x

variable {F : FTy → Type} [FloatOps F]

class Facts₀ : Prop where
  bcast_S1024x64_S1024x1x64_0_2 : S1024x64.BroadcastsInDim S1024x1x64 (![0, 2] : Fin 2 → Fin S1024x1x64.rank)
  bcast_S1024x1x64_S1024x1024x64_0_1_2 : S1024x1x64.BroadcastsInDim S1024x1024x64 (![0, 1, 2] : Fin 3 → Fin S1024x1024x64.rank)
  bcast_S1024x64_S1x1024x64_1_2 : S1024x64.BroadcastsInDim S1x1024x64 (![1, 2] : Fin 2 → Fin S1x1024x64.rank)
  bcast_S1x1024x64_S1024x1024x64_0_1_2 : S1x1024x64.BroadcastsInDim S1024x1024x64 (![0, 1, 2] : Fin 3 → Fin S1024x1024x64.rank)
  concatenates_S1024x1024x64_S1024x1024x64_S1024x1024x128_d2 : Shape.Concatenates [S1024x1024x64, S1024x1024x64] S1024x1024x128 2
  shapeCasts_S1024x1024x128_S1048576x128 : S1024x1024x128.ShapeCasts S1048576x128
  bcast_S64_S1x64_1 : S64.BroadcastsInDim S1x64 (![1] : Fin 1 → Fin S1x64.rank)
  bcast_S1x64_S1048576x64_0_1 : S1x64.BroadcastsInDim S1048576x64 (![0, 1] : Fin 2 → Fin S1048576x64.rank)
  reducesTo_S1048576x64_S1048576_d1 : S1048576x64.ReducesTo [1] S1048576
  h_S_ : 0 < S_.numel
  bcast_S1048576_S1048576x1_0 : S1048576.BroadcastsInDim S1048576x1 (![0] : Fin 1 → Fin S1048576x1.rank)
  bcast_S_S1048576x1 : S_.BroadcastsInDim S1048576x1 (![] : Fin 0 → Fin S1048576x1.rank)
  bcast_S1048576x1_S1048576x64_0_1 : S1048576x1.BroadcastsInDim S1048576x64 (![0, 1] : Fin 2 → Fin S1048576x64.rank)
  bcast_S_S1048576x64 : S_.BroadcastsInDim S1048576x64 (![] : Fin 0 → Fin S1048576x64.rank)
  bcast_S1_S1x1_1 : S1.BroadcastsInDim S1x1 (![1] : Fin 1 → Fin S1x1.rank)
  bcast_S1x1_S1048576x1_0_1 : S1x1.BroadcastsInDim S1048576x1 (![0, 1] : Fin 2 → Fin S1048576x1.rank)
  shapeCasts_S1048576x1_S1048576 : S1048576x1.ShapeCasts S1048576
  bcast_S_S1024x1024 : S_.BroadcastsInDim S1024x1024 (![] : Fin 0 → Fin S1024x1024.rank)
  shapeCasts_S1024x1024_S1048576 : S1024x1024.ShapeCasts S1048576
  bcast_S_S1048576 : S_.BroadcastsInDim S1048576 (![] : Fin 0 → Fin S1048576.rank)
  dot_S1048576x128_S128x64_S1048576x64_1_0_0_1_n_n_wf : DotDims.WF S1048576x128 S128x64 S1048576x64 [1] [0] [0] [1] [] []
  dot_S1048576x64_S64x64_S1048576x64_1_0_0_1_n_n_wf : DotDims.WF S1048576x64 S64x64 S1048576x64 [1] [0] [0] [1] [] []
  dot_S1048576x64_S64x1_S1048576x1_1_0_0_1_n_n_wf : DotDims.WF S1048576x64 S64x1 S1048576x1 [1] [0] [0] [1] [] []

variable [Facts₀]

def dot_S1048576x128_S128x64_S1048576x64_1_0_0_1_n_n : DotDims S1048576x128 S128x64 S1048576x64 where
  lhsContracting := [1]
  rhsContracting := [0]
  lhsNonContracting := [0]
  rhsNonContracting := [1]
  lhsBatch := []
  rhsBatch := []
  wf := dot_S1048576x128_S128x64_S1048576x64_1_0_0_1_n_n_wf
def dot_S1048576x64_S64x64_S1048576x64_1_0_0_1_n_n : DotDims S1048576x64 S64x64 S1048576x64 where
  lhsContracting := [1]
  rhsContracting := [0]
  lhsNonContracting := [0]
  rhsNonContracting := [1]
  lhsBatch := []
  rhsBatch := []
  wf := dot_S1048576x64_S64x64_S1048576x64_1_0_0_1_n_n_wf
def dot_S1048576x64_S64x1_S1048576x1_1_0_0_1_n_n : DotDims S1048576x64 S64x1 S1048576x1 where
  lhsContracting := [1]
  rhsContracting := [0]
  lhsNonContracting := [0]
  rhsNonContracting := [1]
  lhsBatch := []
  rhsBatch := []
  wf := dot_S1048576x64_S64x1_S1048576x1_1_0_0_1_n_n_wf

class Facts : Prop extends Facts₀ where

variable [Facts]
-- ==== Proof.Spec.lean ====
/-
  The edge scorer as plain functions on the extended reals, with no program in sight.
  A node pair (r, s) gets a row of 64 pre-activations; the row goes through
  LayerNorm, ReLU, a 64x64 linear layer, LayerNorm, ReLU and a 64x1 linear layer; the score is
  multiplied by the pair's mask entry and by 0 on the diagonal, 1 off it.
  The two programs differ only in how the first row is formed: one contracts the concatenation
  [emb r ; emb s] (128 entries) with W1 and then adds b1; the other contracts emb r with the upper
  half of W1, adds b1, and adds the contraction of emb s with the lower half. A sum over 128 terms
  is the sum of its two halves, and addition on the extended reals is commutative and associative,
  so the two rows are equal at every input (no finiteness is needed).
-/
import Idealize.ShloMosaic.PureOps.Ideal
import Idealize.ShloMosaic.PureOps.Ideal.Laws
import Idealize.ShloMosaic.Lib.ValueIdx

noncomputable section

namespace Cert.EdgeSpec

open Idealize.ShloMosaic

/-- 64, the row length, as the f32 word both programs divide by. -/
def c64 : EReal := Ideal.ofBits .f32 0x42800000#32
/-- The LayerNorm epsilon, as the f32 word both programs add. -/
def eps : EReal := Ideal.ofBits .f32 0x3727C5AC#32

/-- The mean of a row of 64. -/
def mean64 (x : Fin 64 → EReal) : EReal := Ideal.div (∑ k, x k) c64
/-- The (biased) variance of a row of 64. -/
def var64 (x : Fin 64 → EReal) : EReal := mean64 fun k => (x k - mean64 x) * (x k - mean64 x)
/-- LayerNorm with scale `g` and shift `be`, then ReLU, entry `c` of the row. -/
def lnRelu (g be x : Fin 64 → EReal) (c : Fin 64) : EReal :=
  max ((x c - mean64 x) * Ideal.rsqrt (var64 x + eps) * g c + be c) 0
/-- A 64x64 linear layer: `h · W + b`, entry `c`. -/
def lin (W : Fin 64 → Fin 64 → EReal) (b : Fin 64 → EReal) (h : Fin 64 → EReal) (c : Fin 64) : EReal :=
  (∑ k, h k * W k c) + b c
/-- The score of one row of pre-activations. -/
def score (g1 be1 : Fin 64 → EReal) (W2 : Fin 64 → Fin 64 → EReal) (b2 g2 be2 W3 : Fin 64 → EReal) (b3 : EReal)
    (x : Fin 64 → EReal) : EReal :=
  (∑ k, lnRelu g2 be2 (lin W2 b2 (lnRelu g1 be1 x)) k * W3 k) + b3
/-- 0 on the diagonal, 1 off it. -/
def offDiag (r s : ℕ) : EReal := if r = s then 0 else 1

/-- The first row as the tiled program forms it: `(emb r · W1[0:64] + b1) + emb s · W1[64:128]`. -/
def preSplit (emb : Fin 1024 → Fin 64 → EReal) (W1 : Fin 128 → Fin 64 → EReal) (b1 : Fin 64 → EReal)
    (r s : Fin 1024) (c : Fin 64) : EReal :=
  ((∑ k : Fin 64, emb r k * W1 (Fin.castAdd 64 k) c) + b1 c) + ∑ k : Fin 64, emb s k * W1 (Fin.natAdd 64 k) c

/-- Entry `k` of the concatenation [emb r ; emb s]. -/
def cat (emb : Fin 1024 → Fin 64 → EReal) (r s : Fin 1024) (k : Fin 128) : EReal :=
  if h : k.val < 64 then emb r ⟨k.val, h⟩ else emb s ⟨k.val - 64, by have := k.isLt; omega⟩

/-- The first row as the reference forms it: `[emb r ; emb s] · W1 + b1`. -/
def preCat (emb : Fin 1024 → Fin 64 → EReal) (W1 : Fin 128 → Fin 64 → EReal) (b1 : Fin 64 → EReal)
    (r s : Fin 1024) (c : Fin 64) : EReal :=
  (∑ k : Fin 128, cat emb r s k * W1 k c) + b1 c

/-- The two first rows are one: the sum over 128 splits into its halves, and the bias moves across. -/
theorem preCat_eq_preSplit (emb : Fin 1024 → Fin 64 → EReal) (W1 : Fin 128 → Fin 64 → EReal) (b1 : Fin 64 → EReal)
    (r s : Fin 1024) (c : Fin 64) : preCat emb W1 b1 r s c = preSplit emb W1 b1 r s c := by
  unfold preCat preSplit
  rw [Fin.sum_univ_add (a := 64) (b := 64)]
  have h1 : ∀ k : Fin 64, cat emb r s (Fin.castAdd 64 k) = emb r k := fun k => by
    unfold cat; rw [dif_pos (by show k.val < 64; exact k.isLt)]; rfl
  have h2 : ∀ k : Fin 64, cat emb r s (Fin.natAdd 64 k) = emb s k := fun k => by
    unfold cat
    rw [dif_neg (by show ¬ (64 + k.val < 64); omega)]
    exact congrArg (emb s) (Fin.ext (by show 64 + k.val - 64 = k.val; omega))
  simp only [h1, h2]
  exact add_right_comm _ _ _

/-- The result at node pair (r, s). -/
def out (pre : Fin 1024 → Fin 1024 → Fin 64 → EReal) (mask : Fin 1048576 → EReal)
    (g1 be1 : Fin 64 → EReal) (W2 : Fin 64 → Fin 64 → EReal) (b2 g2 be2 W3 : Fin 64 → EReal) (b3 : EReal)
    (r s : Fin 1024) : EReal :=
  score g1 be1 W2 b2 g2 be2 W3 b3 (pre r s)
    * mask ⟨r.val * 1024 + s.val, by have := r.isLt; have := s.isLt; omega⟩ * offDiag r.val s.val

/-- Flat index `n` is the pair (n / 1024, n % 1024). -/
def rowOf (n : Fin 1048576) : Fin 1024 := ⟨n.val / 1024, by have := n.isLt; omega⟩
def colOf (n : Fin 1048576) : Fin 1024 := ⟨n.val % 1024, Nat.mod_lt _ (by decide)⟩

/-- The result as the flat array both programs return. -/
def res (pre : Fin 1024 → Fin 1024 → Fin 64 → EReal) (mask : Fin 1048576 → EReal)
    (g1 be1 : Fin 64 → EReal) (W2 : Fin 64 → Fin 64 → EReal) (b2 g2 be2 W3 : Fin 64 → EReal) (b3 : EReal)
    (n : Fin 1048576) : EReal :=
  out pre mask g1 be1 W2 b2 g2 be2 W3 b3 (rowOf n) (colOf n)

end Cert.EdgeSpec

end
-- ==== Proof.LibLayout.lean ====
/-
  Layout operations of small rank read at an index written by its coordinates.
  Each lemma says where one entry of a reshaped, broadcast or lane-summed array comes from:
  a unit axis inserted or dropped keeps the row-major position; a broadcast along an axis of
  extent one reads coordinate 0 there; a sum over the last axis of a rank-3 or rank-2 array is the
  finite sum over that coordinate; flattening the two leading axes [a, b] into one of extent a·b
  sends (p, q) to p·b + q. All are stated over literal `Fin` coordinates and the constructors
  `ix1`, `ix2`, `ix3`, so that they chain by rewriting.
-/
import Idealize.ShloMosaic.PureOps.Ideal
import Idealize.ShloMosaic.PureOps.Ideal.Laws
import Idealize.ShloMosaic.Lib.ValueIdx
import Idealize.ShloMosaic.Lib.ValueLayout
import Idealize.ShloMosaic.Lib.Pipeline.Value

noncomputable section

namespace Cert.LibLayout

open Idealize.ShloMosaic Idealize.ShloMosaic.ValueIdx

variable {α : Type}

/-! ## Unit axes inserted and dropped -/

/-- `[a, b]` viewed as `[a, 1, b]`: entry (p, 0, c) is entry (p, c). -/
theorem cast_ab_a1b {a b : ℕ} (x : (⟨2, ![a, b]⟩ : Shape).Idx → α) (h : (⟨2, ![a, b]⟩ : Shape).ShapeCasts ⟨3, ![a, 1, b]⟩)
    (p : Fin a) (u : Fin 1) (c : Fin b) : shapeCast ⟨3, ![a, 1, b]⟩ x h (ix3 p u c) = x (ix2 p c) :=
  shapeCast_apply x h _ _ (by
    have hu : u.val = 0 := by omega
    rw [Shape.rowMajor_val_three, Shape.rowMajor_val_two]
    show p.val * b + c.val = (p.val * 1 + u.val) * b + c.val
    rw [hu, Nat.mul_one, Nat.add_zero])

/-- `[a, b]` viewed as `[a, b, 1]`: entry (p, q, 0) is entry (p, q). -/
theorem cast_ab_ab1 {a b : ℕ} (x : (⟨2, ![a, b]⟩ : Shape).Idx → α) (h : (⟨2, ![a, b]⟩ : Shape).ShapeCasts ⟨3, ![a, b, 1]⟩)
    (p : Fin a) (q : Fin b) (u : Fin 1) : shapeCast ⟨3, ![a, b, 1]⟩ x h (ix3 p q u) = x (ix2 p q) :=
  shapeCast_apply x h _ _ (by
    have hu : u.val = 0 := by omega
    rw [Shape.rowMajor_val_three, Shape.rowMajor_val_two]
    show p.val * b + q.val = (p.val * b + q.val) * 1 + u.val
    rw [hu, Nat.mul_one, Nat.add_zero])

/-- `[a]` viewed as `[a, 1]`: entry (n, 0) is entry n. -/
theorem cast_a_a1 {a : ℕ} (x : (⟨1, ![a]⟩ : Shape).Idx → α) (h : (⟨1, ![a]⟩ : Shape).ShapeCasts ⟨2, ![a, 1]⟩)
    (n : Fin a) (u : Fin 1) : shapeCast ⟨2, ![a, 1]⟩ x h (ix2 n u) = x (ix1 n) :=
  shapeCast_apply x h _ _ (by
    have hu : u.val = 0 := by omega
    rw [Shape.rowMajor_val_two, Shape.rowMajor_val_one]
    show n.val = n.val * 1 + u.val
    rw [hu, Nat.mul_one, Nat.add_zero])

/-- `[a, 1]` viewed as `[a]`: entry n is entry (n, 0). -/
theorem cast_a1_a {a : ℕ} (x : (⟨2, ![a, 1]⟩ : Shape).Idx → α) (h : (⟨2, ![a, 1]⟩ : Shape).ShapeCasts ⟨1, ![a]⟩)
    (n : Fin a) : shapeCast ⟨1, ![a]⟩ x h (ix1 n) = x (ix2 n (0 : Fin 1)) :=
  shapeCast_apply x h _ _ (by
    rw [Shape.rowMajor_val_two, Shape.rowMajor_val_one]
    show n.val * 1 + 0 = n.val
    rw [Nat.mul_one, Nat.add_zero])

/-! ## Two leading axes flattened into one, and back -/

/-- `[a, b, c]` viewed as `[N, c]` with N = a·b: row p·b + q is the pair (p, q). -/
theorem cast_abc_Nc {a b c N : ℕ} (x : (⟨3, ![a, b, c]⟩ : Shape).Idx → α) (h : (⟨3, ![a, b, c]⟩ : Shape).ShapeCasts ⟨2, ![N, c]⟩)
    (p : Fin a) (q : Fin b) (k : Fin c) (hn : p.val * b + q.val < N) :
    shapeCast ⟨2, ![N, c]⟩ x h (ix2 (⟨p.val * b + q.val, hn⟩ : Fin N) k) = x (ix3 p q k) :=
  shapeCast_apply x h _ _ (by
    rw [Shape.rowMajor_val_three, Shape.rowMajor_val_two]
    rfl)

/-- `[N]` viewed as `[a, b]` with N = a·b: entry (p, q) is entry p·b + q. -/
theorem cast_N_ab {a b N : ℕ} (x : (⟨1, ![N]⟩ : Shape).Idx → α) (h : (⟨1, ![N]⟩ : Shape).ShapeCasts ⟨2, ![a, b]⟩)
    (p : Fin a) (q : Fin b) (hn : p.val * b + q.val < N) :
    shapeCast ⟨2, ![a, b]⟩ x h (ix2 p q) = x (ix1 (⟨p.val * b + q.val, hn⟩ : Fin N)) :=
  shapeCast_apply x h _ _ (by
    rw [Shape.rowMajor_val_two, Shape.rowMajor_val_one]
    rfl)

/-- `[N]` viewed as `[a, b]`, read the other way: flat entry n is entry (n / b, n % b). -/
theorem cast_ab_N {a b N : ℕ} (x : (⟨2, ![a, b]⟩ : Shape).Idx → α) (h : (⟨2, ![a, b]⟩ : Shape).ShapeCasts ⟨1, ![N]⟩)
    (n : Fin N) (p : Fin a) (q : Fin b) (hn : n.val = p.val * b + q.val) :
    shapeCast ⟨1, ![N]⟩ x h (ix1 n) = x (ix2 p q) :=
  shapeCast_apply x h _ _ (by
    rw [Shape.rowMajor_val_two, Shape.rowMajor_val_one]
    exact hn.symm)

/-! ## Broadcasts along unit axes -/

/-- `[a, 1, c]` broadcast to `[a, b, c]`: entry (p, q, k) is entry (p, 0, k). -/
theorem bcast_a1c_abc {a b c : ℕ} (v : (⟨3, ![a, 1, c]⟩ : Shape).Idx → α) (h : (⟨3, ![a, 1, c]⟩ : Shape).Broadcasts ⟨3, ![a, b, c]⟩)
    (p : Fin a) (q : Fin b) (k : Fin c) : broadcastTo ⟨3, ![a, b, c]⟩ v h (ix3 p q k) = v (ix3 p (0 : Fin 1) k) := by
  refine broadcastTo_apply v h (ix3 p q k) (ix3 p (0 : Fin 1) k) fun ax => ?_
  match ax with
  | ⟨0, _⟩ =>
    show p.val = if a = 1 then 0 else p.val
    split
    · have := p.isLt; omega
    · rfl
  | ⟨1, _⟩ => rfl
  | ⟨2, _⟩ =>
    show k.val = if c = 1 then 0 else k.val
    split
    · have := k.isLt; omega
    · rfl

/-- `[1, b, c]` broadcast to `[a, b, c]`: entry (p, q, k) is entry (0, q, k). -/
theorem bcast_1bc_abc {a b c : ℕ} (v : (⟨3, ![1, b, c]⟩ : Shape).Idx → α) (h : (⟨3, ![1, b, c]⟩ : Shape).Broadcasts ⟨3, ![a, b, c]⟩)
    (p : Fin a) (q : Fin b) (k : Fin c) : broadcastTo ⟨3, ![a, b, c]⟩ v h (ix3 p q k) = v (ix3 (0 : Fin 1) q k) := by
  refine broadcastTo_apply v h (ix3 p q k) (ix3 (0 : Fin 1) q k) fun ax => ?_
  match ax with
  | ⟨0, _⟩ => rfl
  | ⟨1, _⟩ =>
    show q.val = if b = 1 then 0 else q.val
    split
    · have := q.isLt; omega
    · rfl
  | ⟨2, _⟩ =>
    show k.val = if c = 1 then 0 else k.val
    split
    · have := k.isLt; omega
    · rfl

/-- `[1, 1, c]` broadcast to `[a, b, c]`: entry (p, q, k) is entry (0, 0, k). -/
theorem bcast_11c_abc {a b c : ℕ} (v : (⟨3, ![1, 1, c]⟩ : Shape).Idx → α) (h : (⟨3, ![1, 1, c]⟩ : Shape).Broadcasts ⟨3, ![a, b, c]⟩)
    (p : Fin a) (q : Fin b) (k : Fin c) : broadcastTo ⟨3, ![a, b, c]⟩ v h (ix3 p q k) = v (ix3 (0 : Fin 1) (0 : Fin 1) k) := by
  refine broadcastTo_apply v h (ix3 p q k) (ix3 (0 : Fin 1) (0 : Fin 1) k) fun ax => ?_
  match ax with
  | ⟨0, _⟩ => rfl
  | ⟨1, _⟩ => rfl
  | ⟨2, _⟩ =>
    show k.val = if c = 1 then 0 else k.val
    split
    · have := k.isLt; omega
    · rfl

/-- `[a, b, 1]` broadcast to `[a, b, c]`: entry (p, q, k) is entry (p, q, 0). -/
theorem bcast_ab1_abc {a b c : ℕ} (v : (⟨3, ![a, b, 1]⟩ : Shape).Idx → α) (h : (⟨3, ![a, b, 1]⟩ : Shape).Broadcasts ⟨3, ![a, b, c]⟩)
    (p : Fin a) (q : Fin b) (k : Fin c) : broadcastTo ⟨3, ![a, b, c]⟩ v h (ix3 p q k) = v (ix3 p q (0 : Fin 1)) := by
  refine broadcastTo_apply v h (ix3 p q k) (ix3 p q (0 : Fin 1)) fun ax => ?_
  match ax with
  | ⟨0, _⟩ =>
    show p.val = if a = 1 then 0 else p.val
    split
    · have := p.isLt; omega
    · rfl
  | ⟨1, _⟩ =>
    show q.val = if b = 1 then 0 else q.val
    split
    · have := q.isLt; omega
    · rfl
  | ⟨2, _⟩ => rfl

/-- `[a, 1]` broadcast to `[a, b]`: entry (n, k) is entry (n, 0). -/
theorem bcast_a1_ab {a b : ℕ} (v : (⟨2, ![a, 1]⟩ : Shape).Idx → α) (h : (⟨2, ![a, 1]⟩ : Shape).Broadcasts ⟨2, ![a, b]⟩)
    (n : Fin a) (k : Fin b) : broadcastTo ⟨2, ![a, b]⟩ v h (ix2 n k) = v (ix2 n (0 : Fin 1)) := by
  refine broadcastTo_apply v h (ix2 n k) (ix2 n (0 : Fin 1)) fun ax => ?_
  match ax with
  | ⟨0, _⟩ =>
    show n.val = if a = 1 then 0 else n.val
    split
    · have := n.isLt; omega
    · rfl
  | ⟨1, _⟩ => rfl

/-! ## Sums along the last axis -/

/-- The lane sum of a rank-3 array along its last axis, at (p, q): the sum over k of entry (p, q, k). -/
theorem mred2_abc {a b c : ℕ} (src : FVec Ideal ⟨3, ![a, b, c]⟩ .f32)
    (h : (⟨3, ![a, b, c]⟩ : Shape).Reduces [2] ⟨2, ![a, b]⟩) (hφ : FTy.f32 = FTy.f32 ∨ FTy.f32 = FTy.bf16)
    (hacc : (0x00000000#32 : BitVec FTy.f32.bits) = 0x00000000#32) (p : Fin a) (q : Fin b) :
    multiReduction .add [2] ⟨2, ![a, b]⟩ src 0x00000000#32 h hφ hacc (ix2 p q) = ∑ k : Fin c, src (ix3 p q k) :=
  (Ideal.multiReduction_add_single src 0x00000000#32 h hφ hacc (ix2 p q)).trans
    (Finset.sum_congr rfl fun k _ => congrArg src (funext fun ax => Fin.ext (match ax with
      | ⟨0, _⟩ => rfl
      | ⟨1, _⟩ => rfl
      | ⟨2, _⟩ => rfl)))

/-- The lane sum of a rank-2 array along its last axis, at n: the sum over k of entry (n, k). -/
theorem mred1_ab {a b : ℕ} (src : FVec Ideal ⟨2, ![a, b]⟩ .f32)
    (h : (⟨2, ![a, b]⟩ : Shape).Reduces [1] ⟨1, ![a]⟩) (hφ : FTy.f32 = FTy.f32 ∨ FTy.f32 = FTy.bf16)
    (hacc : (0x00000000#32 : BitVec FTy.f32.bits) = 0x00000000#32) (n : Fin a) :
    multiReduction .add [1] ⟨1, ![a]⟩ src 0x00000000#32 h hφ hacc (ix1 n) = ∑ k : Fin b, src (ix2 n k) :=
  (Ideal.multiReduction_add_single src 0x00000000#32 h hφ hacc (ix1 n)).trans
    (Finset.sum_congr rfl fun k _ => congrArg src (funext fun ax => Fin.ext (match ax with
      | ⟨0, _⟩ => rfl
      | ⟨1, _⟩ => rfl)))

/-! ## Pointwise operations the index passes through -/

theorem rsqrt_apply {s : Shape} (v : FVec Ideal s .f32) (i : s.Idx) : rsqrt v i = Ideal.rsqrt (v i) := rfl

theorem ofBits_scalar (w : BitVec 32) : Scalar.ofBits (F := Ideal) .f32 w = Ideal.ofBits .f32 w := rfl

end Cert.LibLayout

end
-- ==== Proof.KPay1.lean ====
/-
  The last stage of the tiled program's body, read at one entry: the tile of scores times the tile of
  the mask times the off-diagonal indicator. At grid point (i0, i1) the tile's entry (p, q) is the node pair
  (i0·128 + p, i1·128 + q); the indicator compares the two as 32-bit words, which are below 1024 and
  so compare as the numbers themselves.
-/
import proofs.«123928_j40724879901154_1_alg».proof.Proof.Gen.KernelIdeal.Skeleton
import proofs.«123928_j40724879901154_1_alg».proof.Proof.Spec
import proofs.«123928_j40724879901154_1_alg».proof.Proof.LibLayout
import Idealize.ShloMosaic.Lib.IdealHost

noncomputable section

namespace Cert.KernelIdeal.Body

open Idealize.ShloMosaic Idealize.ShloMosaic.ValueIdx Cert.KernelIdeal Cert.KernelIdeal.Gen Cert.EdgeSpec Cert.LibLayout

/-! ## Integer operations read at an index -/

/-- A sum of two integer arrays at an index is the sum of the two words there. -/
private theorem addi_apply {s : Shape} {w : ℕ} (x y : IVec s w) (i : s.Idx) : addi x y i = x i + y i := rfl

/-- An equality test of two integer arrays at an index is the bit "the two words there are equal". -/
private theorem cmpi_eq_apply {s : Shape} {w : ℕ} (x y : IVec s w) (i : s.Idx) :
    cmpi .eq x y i = BitVec.ofBool (x i == y i) := rfl

/-- The scalar product of two 32-bit words is their product as words. -/
private theorem muli_word (x y : BitVec 32) : Scalar.muli x y = x * y := rfl

/-- The row counter of the tile reads the row coordinate. -/
private theorem iota_row (p q : Fin 128) :
    iota .tc S128x128 32 [0] iota_S128x128_d0_w32 (ix2 p q) = BitVec.ofNat 32 p.val :=
  iota_single_apply .tc S128x128 32 0 iota_S128x128_d0_w32 (ix2 p q)

/-- The column counter of the tile reads the column coordinate. -/
private theorem iota_col (p q : Fin 128) :
    iota .tc S128x128 32 [1] iota_S128x128_d1_w32 (ix2 p q) = BitVec.ofNat 32 q.val :=
  iota_single_apply .tc S128x128 32 1 iota_S128x128_d1_w32 (ix2 p q)

/-- A select on the bit "x equals y" is the `if` on that equality. -/
private theorem select_beq {α : Type} (x y : BitVec 32) (a b : α) :
    Scalar.select (BitVec.ofBool (x == y)) a b = if x = y then a else b := by
  by_cases h : x = y
  · rw [if_pos h, h, beq_self_eq_true]; exact select_one a b
  · rw [if_neg h, beq_eq_false_iff_ne.mpr h]; exact select_zero a b

/-! ## Node numbers as 32-bit words -/

/-- The word i0·128 + p, for i0 below 8 and p below 128, is the number i0·128 + p: it is below 1024,
    far below 2^32, so neither the product nor the sum wraps. -/
private theorem word_toNat (i0 : ℕ) (h0 : i0 < 8) (p : Fin 128) :
    (BitVec.ofNat 32 i0 * 128#32 + BitVec.ofNat 32 p.val).toNat = i0 * 128 + p.val := by
  have hp := p.isLt
  simp only [BitVec.toNat_add, BitVec.toNat_mul, BitVec.toNat_ofNat]
  omega

/-- Two such words are equal exactly when the two node numbers are. -/
private theorem word_eq_iff (i0 i1 : ℕ) (h0 : i0 < 8) (h1 : i1 < 8) (p q : Fin 128) :
    (BitVec.ofNat 32 i0 * 128#32 + BitVec.ofNat 32 p.val = BitVec.ofNat 32 i1 * 128#32 + BitVec.ofNat 32 q.val)
      ↔ i0 * 128 + p.val = i1 * 128 + q.val := by
  rw [← BitVec.toNat_inj, word_toNat i0 h0 p, word_toNat i1 h1 q]

/-! ## The stage -/

/-- Entry (p, q) of the stored tile at grid point (i0, i1). -/
theorem pay1_apply (i0 i1 : ℕ) (h0 : i0 < 8) (h1 : i1 < 8) (s : FVec Ideal S128x128 .f32) (mask : Vec Ideal S128x128 .f32) (p q : Fin 128) :
    k0_pay1 (F := Ideal) (BitVec.ofNat 32 i0) (BitVec.ofNat 32 i1) s 128#32 mask (ix2 p q)
      = s (ix2 p q) * mask (ix2 p q) * offDiag (i0 * 128 + p.val) (i1 * 128 + q.val) := by
  unfold k0_pay1
  -- every layer read at (p, q): the two products, and a select on the bit "row word = column word"
  simp only [mulf_apply, select_apply, broadcast_apply, shapeCast_self, addi_apply, cmpi_eq_apply, muli_word,
    ofBits_scalar, select_beq]
  rw [iota_row p q, iota_col p q]
  -- the words are equal iff the node numbers are; the two selected words are 0.0 and 1.0
  simp only [word_eq_iff i0 i1 h0 h1 p q, Ideal.ofBits_zero_f32, Ideal.ofBits_one_f32, offDiag]

end Cert.KernelIdeal.Body

end
-- ==== Proof.KPay2.lean ====
/-
  The first stage of the tiled program's body, read at one entry.
  From the two row blocks a (128 x 64) and b (128 x 64) the body forms the outer sum
  a[p, :] + b[q, :] for every pair (p, q), applies LayerNorm (scale g1, shift be1) and ReLU along the
  last axis, and lays the 128 x 128 pairs out as 16384 rows: row p·128 + q is the pair (p, q).
-/
import proofs.«123928_j40724879901154_1_alg».proof.Proof.Gen.KernelIdeal.Skeleton
import proofs.«123928_j40724879901154_1_alg».proof.Proof.Spec
import proofs.«123928_j40724879901154_1_alg».proof.Proof.LibLayout

noncomputable section

namespace Cert.KernelIdeal.Body

open Idealize.ShloMosaic Idealize.ShloMosaic.ValueIdx Cert.KernelIdeal Cert.KernelIdeal.Gen Cert.EdgeSpec Cert.LibLayout

/-- Row p·128 + q of the first stage is LayerNorm-then-ReLU of the row a[p, :] + b[q, :]. -/
theorem pay2_apply (a b : Vec Ideal S128x64 .f32) (g1 be1 : Vec Ideal S1x64 .f32) (p q : Fin 128) (c : Fin 64)
    (hn : p.val * 128 + q.val < 16384) :
    k0_pay2 (F := Ideal) a b g1 be1 (ix2 (⟨p.val * 128 + q.val, hn⟩ : Fin 16384) c)
      = lnRelu (fun k => g1 (ix2 (0 : Fin 1) k)) (fun k => be1 (ix2 (0 : Fin 1) k))
          (fun k => a (ix2 p k) + b (ix2 q k)) c := by
  have hm := fun (src : FVec Ideal S128x128x64 .f32) (p q : Fin 128) =>
    mred2_abc src reduces_S128x128x64_S128x128 (Or.inl rfl) rfl p q
  unfold k0_pay2
  simp only [cast_abc_Nc, maximumf_apply, addf_apply, mulf_apply, subf_apply, divf_apply, rsqrt_apply, broadcast_apply,
    bcast_a1c_abc, bcast_1bc_abc, bcast_11c_abc, bcast_ab1_abc, cast_ab_a1b, cast_ab_ab1, shapeCast_ab_1ab_apply,
    shapeCast_self, hm, ofBits_scalar]
  simp only [lnRelu, var64, mean64, c64, eps, Ideal.ofBits_zero_f32]

end Cert.KernelIdeal.Body

end
-- ==== Proof.KPay3.lean ====
/-
  The second stage of the tiled program's body, read at one entry.
  Each of the 16384 rows h1 (one per node pair of the tile) goes through the 64x64 linear layer (W2, b2),
  LayerNorm (scale g2, shift be2) and ReLU, and the 64x1 linear layer (W3, b3); the 16384 scores are
  laid out as the 128 x 128 tile: entry (p, q) is row p·128 + q.
-/
import proofs.«123928_j40724879901154_1_alg».proof.Proof.Gen.KernelIdeal.Skeleton
import proofs.«123928_j40724879901154_1_alg».proof.Proof.Spec
import proofs.«123928_j40724879901154_1_alg».proof.Proof.LibLayout

noncomputable section

namespace Cert.KernelIdeal.Body

open Idealize.ShloMosaic Idealize.ShloMosaic.ValueIdx Cert.KernelIdeal Cert.KernelIdeal.Gen Cert.EdgeSpec Cert.LibLayout

/-- Axis 0 of the left operand's index is the output row. -/
theorem lhs_A_0 (i : S16384x64.Idx) (q : dot_S16384x64_S64x64_S16384x64_1_0_0_1_n_n.contr.Idx) :
    (dot_S16384x64_S64x64_S16384x64_1_0_0_1_n_n.lhsIdx i q 0).val = (i 0).val := by
  unfold DotDims.lhsIdx
  rw [dif_neg (show ¬(0 : Fin S16384x64.rank) ∈ dot_S16384x64_S64x64_S16384x64_1_0_0_1_n_n.lhsBatch by decide), dif_pos (show (0 : Fin S16384x64.rank) ∈ dot_S16384x64_S64x64_S16384x64_1_0_0_1_n_n.lhsNonContracting by decide)]
  rfl
/-- Axis 1 of the left operand's index is the contraction coordinate. -/
theorem lhs_A_1 (i : S16384x64.Idx) (q : dot_S16384x64_S64x64_S16384x64_1_0_0_1_n_n.contr.Idx) :
    (dot_S16384x64_S64x64_S16384x64_1_0_0_1_n_n.lhsIdx i q 1).val = (q ⟨0, by decide⟩).val :=
  dot_S16384x64_S64x64_S16384x64_1_0_0_1_n_n.lhsIdx_val_of_single rfl i q
/-- Axis 0 of the right operand's index is the contraction coordinate. -/
theorem rhs_A_0 (i : S16384x64.Idx) (q : dot_S16384x64_S64x64_S16384x64_1_0_0_1_n_n.contr.Idx) :
    (dot_S16384x64_S64x64_S16384x64_1_0_0_1_n_n.rhsIdx i q 0).val = (q ⟨0, by decide⟩).val :=
  dot_S16384x64_S64x64_S16384x64_1_0_0_1_n_n.rhsIdx_val_of_single rfl i q
/-- Axis 1 of the right operand's index is the output column. -/
theorem rhs_A_1 (i : S16384x64.Idx) (q : dot_S16384x64_S64x64_S16384x64_1_0_0_1_n_n.contr.Idx) :
    (dot_S16384x64_S64x64_S16384x64_1_0_0_1_n_n.rhsIdx i q 1).val = (i 1).val := by
  unfold DotDims.rhsIdx
  rw [dif_neg (show ¬(1 : Fin S64x64.rank) ∈ dot_S16384x64_S64x64_S16384x64_1_0_0_1_n_n.rhsBatch by decide), dif_pos (show (1 : Fin S64x64.rank) ∈ dot_S16384x64_S64x64_S16384x64_1_0_0_1_n_n.rhsNonContracting by decide)]
  rfl

/-- The 64x64 layer's product into a zero accumulator, at (n, c): the sum over k of lhs (n, k) · rhs (k, c). -/
theorem matmul_A_apply (lhs : FVec Ideal S16384x64 .f32) (rhs : FVec Ideal S64x64 .f32) (n : Fin 16384) (c : Fin 64) :
    matmul (F := Ideal) dot_S16384x64_S64x64_S16384x64_1_0_0_1_n_n none lhs rhs (constant (F := Ideal) S16384x64 .f32 0x00000000#32) (ix2 n c)
      = ∑ k : Fin 64, lhs (ix2 n k) * rhs (ix2 k c) := by
  simp only [matmul]
  rw [Ideal.matmul_constant_zero_apply, ← Equiv.sum_comp (ValueIdx.contrEquiv1 dot_S16384x64_S64x64_S16384x64_1_0_0_1_n_n 64 rfl rfl).symm]
  refine Finset.sum_congr rfl fun k _ => ?_
  have hk := ValueIdx.contrEquiv1_symm_val dot_S16384x64_S64x64_S16384x64_1_0_0_1_n_n 64 rfl rfl k
  have el : dot_S16384x64_S64x64_S16384x64_1_0_0_1_n_n.lhsIdx (ix2 n c) ((ValueIdx.contrEquiv1 dot_S16384x64_S64x64_S16384x64_1_0_0_1_n_n 64 rfl rfl).symm k) = ix2 n k := funext fun a => Fin.ext (by
    match a with
    | ⟨0, _⟩ => exact lhs_A_0 _ _
    | ⟨1, _⟩ => exact (lhs_A_1 _ _).trans hk)
  have er : dot_S16384x64_S64x64_S16384x64_1_0_0_1_n_n.rhsIdx (ix2 n c) ((ValueIdx.contrEquiv1 dot_S16384x64_S64x64_S16384x64_1_0_0_1_n_n 64 rfl rfl).symm k) = ix2 k c := funext fun a => Fin.ext (by
    match a with
    | ⟨0, _⟩ => exact (rhs_A_0 _ _).trans hk
    | ⟨1, _⟩ => exact rhs_A_1 _ _)
  rw [el, er]

/-- Axis 0 of the left operand's index is the output row. -/
theorem lhs_B_0 (i : S16384x1.Idx) (q : dot_S16384x64_S64x1_S16384x1_1_0_0_1_n_n.contr.Idx) :
    (dot_S16384x64_S64x1_S16384x1_1_0_0_1_n_n.lhsIdx i q 0).val = (i 0).val := by
  unfold DotDims.lhsIdx
  rw [dif_neg (show ¬(0 : Fin S16384x64.rank) ∈ dot_S16384x64_S64x1_S16384x1_1_0_0_1_n_n.lhsBatch by decide), dif_pos (show (0 : Fin S16384x64.rank) ∈ dot_S16384x64_S64x1_S16384x1_1_0_0_1_n_n.lhsNonContracting by decide)]
  rfl
/-- Axis 1 of the left operand's index is the contraction coordinate. -/
theorem lhs_B_1 (i : S16384x1.Idx) (q : dot_S16384x64_S64x1_S16384x1_1_0_0_1_n_n.contr.Idx) :
    (dot_S16384x64_S64x1_S16384x1_1_0_0_1_n_n.lhsIdx i q 1).val = (q ⟨0, by decide⟩).val :=
  dot_S16384x64_S64x1_S16384x1_1_0_0_1_n_n.lhsIdx_val_of_single rfl i q
/-- Axis 0 of the right operand's index is the contraction coordinate. -/
theorem rhs_B_0 (i : S16384x1.Idx) (q : dot_S16384x64_S64x1_S16384x1_1_0_0_1_n_n.contr.Idx) :
    (dot_S16384x64_S64x1_S16384x1_1_0_0_1_n_n.rhsIdx i q 0).val = (q ⟨0, by decide⟩).val :=
  dot_S16384x64_S64x1_S16384x1_1_0_0_1_n_n.rhsIdx_val_of_single rfl i q
/-- Axis 1 of the right operand's index is the output column. -/
theorem rhs_B_1 (i : S16384x1.Idx) (q : dot_S16384x64_S64x1_S16384x1_1_0_0_1_n_n.contr.Idx) :
    (dot_S16384x64_S64x1_S16384x1_1_0_0_1_n_n.rhsIdx i q 1).val = (i 1).val := by
  unfold DotDims.rhsIdx
  rw [dif_neg (show ¬(1 : Fin S64x1.rank) ∈ dot_S16384x64_S64x1_S16384x1_1_0_0_1_n_n.rhsBatch by decide), dif_pos (show (1 : Fin S64x1.rank) ∈ dot_S16384x64_S64x1_S16384x1_1_0_0_1_n_n.rhsNonContracting by decide)]
  rfl

/-- The 64x1 layer's product into a zero accumulator, at (n, c) with c the one column: the sum over k of lhs (n, k) · rhs (k, c). -/
theorem matmul_B_apply (lhs : FVec Ideal S16384x64 .f32) (rhs : FVec Ideal S64x1 .f32) (n : Fin 16384) (c : Fin 1) :
    matmul (F := Ideal) dot_S16384x64_S64x1_S16384x1_1_0_0_1_n_n none lhs rhs (constant (F := Ideal) S16384x1 .f32 0x00000000#32) (ix2 n c)
      = ∑ k : Fin 64, lhs (ix2 n k) * rhs (ix2 k c) := by
  simp only [matmul]
  rw [Ideal.matmul_constant_zero_apply, ← Equiv.sum_comp (ValueIdx.contrEquiv1 dot_S16384x64_S64x1_S16384x1_1_0_0_1_n_n 64 rfl rfl).symm]
  refine Finset.sum_congr rfl fun k _ => ?_
  have hk := ValueIdx.contrEquiv1_symm_val dot_S16384x64_S64x1_S16384x1_1_0_0_1_n_n 64 rfl rfl k
  have el : dot_S16384x64_S64x1_S16384x1_1_0_0_1_n_n.lhsIdx (ix2 n c) ((ValueIdx.contrEquiv1 dot_S16384x64_S64x1_S16384x1_1_0_0_1_n_n 64 rfl rfl).symm k) = ix2 n k := funext fun a => Fin.ext (by
    match a with
    | ⟨0, _⟩ => exact lhs_B_0 _ _
    | ⟨1, _⟩ => exact (lhs_B_1 _ _).trans hk)
  have er : dot_S16384x64_S64x1_S16384x1_1_0_0_1_n_n.rhsIdx (ix2 n c) ((ValueIdx.contrEquiv1 dot_S16384x64_S64x1_S16384x1_1_0_0_1_n_n 64 rfl rfl).symm k) = ix2 k c := funext fun a => Fin.ext (by
    match a with
    | ⟨0, _⟩ => exact (rhs_B_0 _ _).trans hk
    | ⟨1, _⟩ => exact rhs_B_1 _ _)
  rw [el, er]

/-- The one entry of a 1x1 block, taken out at position (0, 0). -/
theorem extractAt_00 {α : Type} (v : (⟨2, ![1, 1]⟩ : Shape).Idx → α)
    (h : ∀ a, (![0, 0] : Fin (⟨2, ![1, 1]⟩ : Shape).rank → ℕ) a < (⟨2, ![1, 1]⟩ : Shape).size a) :
    extractAt ![0, 0] v h = v (ix2 (0 : Fin 1) (0 : Fin 1)) :=
  congrArg v (funext fun a => Fin.ext (match a with
    | ⟨0, _⟩ => rfl
    | ⟨1, _⟩ => rfl))

/-- Entry (p, q) of the second stage: the score of row p·128 + q of the first stage's result. -/
theorem pay3_apply (h1 : FVec Ideal S16384x64 .f32) (W2 : Vec Ideal S64x64 .f32) (b2 g2 be2 : Vec Ideal S1x64 .f32)
    (W3 : Vec Ideal S64x1 .f32) (b3 : Vec Ideal S1x1 .f32) (p q : Fin 128) (hn : p.val * 128 + q.val < 16384) :
    k0_pay3 (F := Ideal) h1 W2 (constant S16384x64 .f32 0x00000000#32) b2 g2 be2 W3 b3 (ix2 p q)
      = (∑ k : Fin 64, lnRelu (fun c => g2 (ix2 (0 : Fin 1) c)) (fun c => be2 (ix2 (0 : Fin 1) c))
            (lin (fun k c => W2 (ix2 k c)) (fun c => b2 (ix2 (0 : Fin 1) c))
              (fun k => h1 (ix2 (⟨p.val * 128 + q.val, hn⟩ : Fin 16384) k))) k * W3 (ix2 k (0 : Fin 1)))
        + b3 (ix2 (0 : Fin 1) (0 : Fin 1)) := by
  -- the lane sum of a 16384 x 64 array at row n is the sum over its 64 entries
  have hm := fun (src : FVec Ideal S16384x64 .f32) (n : Fin 16384) =>
    mred1_ab src reduces_S16384x64_S16384 (Or.inl rfl) rfl n
  unfold k0_pay3
  -- push the entry (p, q) through every layer: the tile entry is flat row p·128 + q, the column views and
  -- broadcasts read coordinate 0, the two products are sums over k, the lane sums are sums over the row
  simp only [cast_N_ab (hn := hn), addf_apply, broadcast_apply, cast_a1_a, matmul_B_apply, extractAt_00, shapeCast_self,
    maximumf_apply, mulf_apply, subf_apply, divf_apply, rsqrt_apply, bcast_a1_ab, broadcastTo_1b_ab_apply, cast_a_a1, hm,
    matmul_A_apply, ofBits_scalar]
  -- both sides are now the same expression once the specification's names are opened
  simp only [lnRelu, var64, mean64, c64, eps, lin, Ideal.ofBits_zero_f32]

end Cert.KernelIdeal.Body

end
-- ==== Proof.KOut.lean ====
/-
  What the body leaves in the output tile at grid point i = (i0, i1), read at entry (p, q): the score of
  the row a[p, :] + b[q, :], times the mask tile's entry, times the off-diagonal indicator of the node
  pair (i0·128 + p, i1·128 + q). The three stages of the body are composed.
-/
import proofs.«123928_j40724879901154_1_alg».proof.Proof.FrameKernelIdeal
import proofs.«123928_j40724879901154_1_alg».proof.Proof.KPay1
import proofs.«123928_j40724879901154_1_alg».proof.Proof.KPay2
import proofs.«123928_j40724879901154_1_alg».proof.Proof.KPay3

noncomputable section

namespace Cert.KernelIdeal.Body

open Idealize.ShloMosaic Idealize.ShloMosaic.ValueIdx Cert.KernelIdeal Cert.KernelIdeal.Gen Cert.EdgeSpec Cert.LibLayout

/-- Entry (p, q) of the output tile after the body at grid point `i`. -/
theorem out_apply (i : grid0.Coords) (x0 x1 : Vec Ideal S128x64 .f32) (x2 : Vec Ideal S128x128 .f32) (x3 : Vec Ideal S64x64 .f32)
    (x4 x5 x6 : Vec Ideal S1x64 .f32) (x7 : Vec Ideal S64x1 .f32) (x8 : Vec Ideal S1x1 .f32) (x9 x10 : Vec Ideal S1x64 .f32)
    (p q : Fin 128) :
    Cert.KernelIdeal.GenP.out0_11 (F := Ideal) i x0 x1 x2 x3 x4 x5 x6 x7 x8 x9 x10 (ix2 p q)
      = score (fun k => x9 (ix2 (0 : Fin 1) k)) (fun k => x10 (ix2 (0 : Fin 1) k)) (fun k c => x3 (ix2 k c))
          (fun c => x4 (ix2 (0 : Fin 1) c)) (fun c => x5 (ix2 (0 : Fin 1) c)) (fun c => x6 (ix2 (0 : Fin 1) c))
          (fun k => x7 (ix2 k (0 : Fin 1))) (x8 (ix2 (0 : Fin 1) (0 : Fin 1)))
          (fun k => x0 (ix2 p k) + x1 (ix2 q k))
        * x2 (ix2 p q) * offDiag ((i 0).val * 128 + p.val) ((i 1).val * 128 + q.val) := by
  -- the grid has 8 x 8 points, and a pair (p, q) of a 128 x 128 tile is row p·128 + q of 16384
  have h0 : (i 0).val < 8 := (i 0).isLt
  have h1 : (i 1).val < 8 := (i 1).isLt
  have hn : p.val * 128 + q.val < 16384 := by have := p.isLt; have := q.isLt; omega
  have hz : (![0, 0] : Fin 2 → ℕ) = fun _ => 0 := by
    funext a; match a with | ⟨0, _⟩ => rfl | ⟨1, _⟩ => rfl
  -- the one store covers the whole tile from offset (0, 0), and so does every load: the tile is the payload of the blocks
  unfold Cert.KernelIdeal.GenP.out0_11
  rw [View.canon_unit_zero hz]
  simp only [View.ld_unit_zero (S := S128x64) hz, View.ld_unit_zero (S := S1x64) hz, View.ld_unit_zero (S := S64x64) hz,
    View.ld_unit_zero (S := S64x1) hz, View.ld_unit_zero (S := S1x1) hz, View.ld_unit_zero (S := S128x128) hz]
  -- last stage, then the second at the pair (p, q), then the first at each entry of row p·128 + q
  rw [pay1_apply (i 0).val (i 1).val h0 h1 _ x2 p q, pay3_apply _ x3 x4 x5 x6 x7 x8 p q hn]
  simp only [pay2_apply]
  -- what is left is the score of the row a[p, :] + b[q, :], spelt out
  rfl

end Cert.KernelIdeal.Body

end
-- ==== Proof.KHost.lean ====
/-
  The arrays the tiled program's host lines prepare before the launch, read at one entry, as functions
  of the argument arrays: A = emb · W1[0:64] + b1 and B = emb · W1[64:128] (two 64-term contractions),
  the mask viewed as a 1024 x 1024 matrix (entry (r, s) is flat entry r·1024 + s), and the six parameter
  vectors viewed as rows of a 1 x 64 (or 1 x 1) matrix.
-/
import proofs.«123928_j40724879901154_1_alg».proof.Proof.FrameKernelIdeal
import proofs.«123928_j40724879901154_1_alg».proof.Proof.Spec
import proofs.«123928_j40724879901154_1_alg».proof.Proof.LibLayout
import Idealize.ShloMosaic.Lib.StableHlo.Run

noncomputable section

namespace Cert.KernelIdeal.HostVal

open Idealize.ShloMosaic Idealize.ShloMosaic.TcCoe Idealize.ShloMosaic.ValueIdx Idealize.SL.Sem Cert.KernelIdeal Cert.KernelIdeal.Gen Cert.EdgeSpec Cert.LibLayout

variable (m : (ℓ : Loc nD τ sig) → Buf (Elt Ideal) ℓ)

/-! The argument arrays and the prepared arrays, each at its literal type. -/
abbrev arr0 (c : Dev nD) : Vec Ideal S1024x64 .f32 := m ((c : Thread nD τ).loc main_arg0)
abbrev arr1 (c : Dev nD) : Vec Ideal S1048576 .f32 := m ((c : Thread nD τ).loc main_arg1)
abbrev arr2 (c : Dev nD) : Vec Ideal S128x64 .f32 := m ((c : Thread nD τ).loc main_arg2)
abbrev arr3 (c : Dev nD) : Vec Ideal S64 .f32 := m ((c : Thread nD τ).loc main_arg3)
abbrev arr4 (c : Dev nD) : Vec Ideal S64 .f32 := m ((c : Thread nD τ).loc main_arg4)
abbrev arr5 (c : Dev nD) : Vec Ideal S64 .f32 := m ((c : Thread nD τ).loc main_arg5)
abbrev arr6 (c : Dev nD) : Vec Ideal S64x64 .f32 := m ((c : Thread nD τ).loc main_arg6)
abbrev arr7 (c : Dev nD) : Vec Ideal S64 .f32 := m ((c : Thread nD τ).loc main_arg7)
abbrev arr8 (c : Dev nD) : Vec Ideal S64 .f32 := m ((c : Thread nD τ).loc main_arg8)
abbrev arr9 (c : Dev nD) : Vec Ideal S64 .f32 := m ((c : Thread nD τ).loc main_arg9)
abbrev arr10 (c : Dev nD) : Vec Ideal S64x1 .f32 := m ((c : Thread nD τ).loc main_arg10)
abbrev arr11 (c : Dev nD) : Vec Ideal S1 .f32 := m ((c : Thread nD τ).loc main_arg11)
abbrev vA (c : Dev nD) : Vec Ideal S1024x64 .f32 := GenP.V m c main_v5
abbrev vB (c : Dev nD) : Vec Ideal S1024x64 .f32 := GenP.V m c main_v6
abbrev vMask (c : Dev nD) : Vec Ideal S1024x1024 .f32 := GenP.V m c main_v7
abbrev vG1 (c : Dev nD) : Vec Ideal S1x64 .f32 := GenP.V m c main_v8
abbrev vBe1 (c : Dev nD) : Vec Ideal S1x64 .f32 := GenP.V m c main_v9
abbrev vG2 (c : Dev nD) : Vec Ideal S1x64 .f32 := GenP.V m c main_v10
abbrev vBe2 (c : Dev nD) : Vec Ideal S1x64 .f32 := GenP.V m c main_v11
abbrev vB2 (c : Dev nD) : Vec Ideal S1x64 .f32 := GenP.V m c main_v12
abbrev vB3 (c : Dev nD) : Vec Ideal S1x1 .f32 := GenP.V m c main_v13
abbrev vW2 (c : Dev nD) : Vec Ideal S64x64 .f32 := GenP.V m c main_arg6
abbrev vW3 (c : Dev nD) : Vec Ideal S64x1 .f32 := GenP.V m c main_arg10

/-- The two weight matrices reach the launch as they were passed. -/
theorem vW2_eq (c : Dev nD) : vW2 m c = arr6 m c := GenP.V_main_arg6 m c
theorem vW3_eq (c : Dev nD) : vW3 m c = arr10 m c := GenP.V_main_arg10 m c

/-! The contraction's operand indices at output index i and contraction index q, coordinate by coordinate:
    the left operand is read at (i 0, q), the right operand at (q, i 1). -/
theorem lhs_dot_0 (i : S1024x64.Idx) (q : dot_S1024x64_S64x64_S1024x64_1_0_0_1_n_n.contr.Idx) :
    (dot_S1024x64_S64x64_S1024x64_1_0_0_1_n_n.lhsIdx i q 0).val = (i 0).val := by
  unfold DotDims.lhsIdx
  rw [dif_neg (show ¬(0 : Fin S1024x64.rank) ∈ dot_S1024x64_S64x64_S1024x64_1_0_0_1_n_n.lhsBatch by decide), dif_pos (show (0 : Fin S1024x64.rank) ∈ dot_S1024x64_S64x64_S1024x64_1_0_0_1_n_n.lhsNonContracting by decide)]
  rfl
theorem lhs_dot_1 (i : S1024x64.Idx) (q : dot_S1024x64_S64x64_S1024x64_1_0_0_1_n_n.contr.Idx) :
    (dot_S1024x64_S64x64_S1024x64_1_0_0_1_n_n.lhsIdx i q 1).val = (q ⟨0, by decide⟩).val :=
  dot_S1024x64_S64x64_S1024x64_1_0_0_1_n_n.lhsIdx_val_of_single rfl i q
theorem rhs_dot_0 (i : S1024x64.Idx) (q : dot_S1024x64_S64x64_S1024x64_1_0_0_1_n_n.contr.Idx) :
    (dot_S1024x64_S64x64_S1024x64_1_0_0_1_n_n.rhsIdx i q 0).val = (q ⟨0, by decide⟩).val :=
  dot_S1024x64_S64x64_S1024x64_1_0_0_1_n_n.rhsIdx_val_of_single rfl i q
theorem rhs_dot_1 (i : S1024x64.Idx) (q : dot_S1024x64_S64x64_S1024x64_1_0_0_1_n_n.contr.Idx) :
    (dot_S1024x64_S64x64_S1024x64_1_0_0_1_n_n.rhsIdx i q 1).val = (i 1).val := by
  unfold DotDims.rhsIdx
  rw [dif_neg (show ¬(1 : Fin S64x64.rank) ∈ dot_S1024x64_S64x64_S1024x64_1_0_0_1_n_n.rhsBatch by decide), dif_pos (show (1 : Fin S64x64.rank) ∈ dot_S1024x64_S64x64_S1024x64_1_0_0_1_n_n.rhsNonContracting by decide)]
  rfl

/-- The contraction of a 1024 x 64 array with a 64 x 64 array, at (r, k): the sum over j of x[r, j] · w[j, k].
    The contraction index has one axis of extent 64, so the sum over it is a sum over Fin 64. -/
theorem dot_apply (x : FVec Ideal S1024x64 .f32) (w : FVec Ideal S64x64 .f32) (r : Fin 1024) (k : Fin 64) :
    Host.dotGeneral (F := Ideal) (φ₁ := .f32) (φ₂ := .f32) dot_S1024x64_S64x64_S1024x64_1_0_0_1_n_n none x w (ix2 r k)
      = ∑ j : Fin 64, x (ix2 r j) * w (ix2 j k) := by
  simp only [Host.dotGeneral]
  rw [Ideal.dotGeneral_apply, ← Equiv.sum_comp (ValueIdx.contrEquiv1 dot_S1024x64_S64x64_S1024x64_1_0_0_1_n_n 64 rfl rfl).symm]
  refine Finset.sum_congr rfl fun j _ => ?_
  have hj := ValueIdx.contrEquiv1_symm_val dot_S1024x64_S64x64_S1024x64_1_0_0_1_n_n 64 rfl rfl j
  have el : dot_S1024x64_S64x64_S1024x64_1_0_0_1_n_n.lhsIdx (ix2 r k) ((ValueIdx.contrEquiv1 dot_S1024x64_S64x64_S1024x64_1_0_0_1_n_n 64 rfl rfl).symm j) = ix2 r j :=
    funext fun a => Fin.ext (by
      match a with
      | ⟨0, _⟩ => exact lhs_dot_0 _ _
      | ⟨1, _⟩ => exact (lhs_dot_1 _ _).trans hj)
  have er : dot_S1024x64_S64x64_S1024x64_1_0_0_1_n_n.rhsIdx (ix2 r k) ((ValueIdx.contrEquiv1 dot_S1024x64_S64x64_S1024x64_1_0_0_1_n_n 64 rfl rfl).symm j) = ix2 j k :=
    funext fun a => Fin.ext (by
      match a with
      | ⟨0, _⟩ => exact (rhs_dot_0 _ _).trans hj
      | ⟨1, _⟩ => exact rhs_dot_1 _ _)
  rw [el, er]

/-- Rows 0..63 of a 128 x 64 array, at (j, k): row j of the whole array. -/
theorem slice_top (x : Vec Ideal S128x64 .f32) (j k : Fin 64) :
    extractStridedSlice S64x64 ![0, 0] x slices_S128x64_S64x64_0_0 (ix2 j k) = x (ix2 (Fin.castAdd 64 j) k) :=
  extractStridedSlice_apply _ x _ _ _ (fun a => match a with
    | ⟨0, _⟩ => by show j.val = 0 + j.val; omega
    | ⟨1, _⟩ => by show k.val = 0 + k.val; omega)

/-- Rows 64..127 of a 128 x 64 array, at (j, k): row 64 + j of the whole array. -/
theorem slice_bot (x : Vec Ideal S128x64 .f32) (j k : Fin 64) :
    extractStridedSlice S64x64 ![64, 0] x slices_S128x64_S64x64_64_0 (ix2 j k) = x (ix2 (Fin.natAdd 64 j) k) :=
  extractStridedSlice_apply _ x _ _ _ (fun a => match a with
    | ⟨0, _⟩ => by show 64 + j.val = 64 + j.val; rfl
    | ⟨1, _⟩ => by show k.val = 0 + k.val; omega)

/-- A vector of 64 placed as the one row of a 1 x 64 matrix and that row repeated down 1024 rows, at (r, k):
    entry k of the vector. -/
theorem bias_apply (b : Vec Ideal S64 .f32) (r : Fin 1024) (k : Fin 64) :
    broadcastInDim S1024x64 ![0, 1] bcast_S1x64_S1024x64_0_1 (broadcastInDim S1x64 ![1] bcast_S64_S1x64_1 b) (ix2 r k)
      = b (ix1 k) :=
  (broadcastInDim_apply _ bcast_S1x64_S1024x64_0_1 _ (ix2 r k) (ix2 (0 : Fin 1) k) (fun a => match a with
    | ⟨0, _⟩ => by show 0 = if (1 : Nat) = 1 then 0 else r.val; rw [if_pos rfl]
    | ⟨1, _⟩ => by show k.val = if (64 : Nat) = 1 then 0 else k.val; rw [if_neg (by decide)])).trans
  (broadcastInDim_apply _ bcast_S64_S1x64_1 b (ix2 (0 : Fin 1) k) (ix1 k) (fun a => match a with
    | ⟨0, _⟩ => by show k.val = if (64 : Nat) = 1 then 0 else k.val; rw [if_neg (by decide)]))

/-! What each prepared array holds at the launch, as a function of the argument arrays: the host lines
    before the launch, composed. -/
theorem vA_fun (c : Dev nD) :
    (vA m c : S1024x64.Idx → EReal)
      = addf (Host.dotGeneral (F := Ideal) (φ₁ := .f32) (φ₂ := .f32) dot_S1024x64_S64x64_S1024x64_1_0_0_1_n_n none (arr0 m c)
            (extractStridedSlice S64x64 ![0, 0] (arr2 m c) slices_S128x64_S64x64_0_0))
          (broadcastInDim S1024x64 ![0, 1] bcast_S1x64_S1024x64_0_1 (broadcastInDim S1x64 ![1] bcast_S64_S1x64_1 (arr3 m c))) := by
  show StableHlo.after hostOps0 (fun b => m (c, b)) (Proc.devRef .tc main_v5) = _
  after_results <;> rfl
theorem vB_fun (c : Dev nD) :
    (vB m c : S1024x64.Idx → EReal)
      = Host.dotGeneral (F := Ideal) (φ₁ := .f32) (φ₂ := .f32) dot_S1024x64_S64x64_S1024x64_1_0_0_1_n_n none (arr0 m c)
          (extractStridedSlice S64x64 ![64, 0] (arr2 m c) slices_S128x64_S64x64_64_0) := by
  show StableHlo.after hostOps0 (fun b => m (c, b)) (Proc.devRef .tc main_v6) = _
  after_results <;> rfl
theorem vMask_fun (c : Dev nD) :
    (vMask m c : S1024x1024.Idx → EReal) = shapeCast S1024x1024 (arr1 m c) shapeCasts_S1048576_S1024x1024 := by
  show StableHlo.after hostOps0 (fun b => m (c, b)) (Proc.devRef .tc main_v7) = _
  after_results <;> rfl
theorem vG1_fun (c : Dev nD) : (vG1 m c : S1x64.Idx → EReal) = shapeCast S1x64 (arr4 m c) shapeCasts_S64_S1x64 := by
  show StableHlo.after hostOps0 (fun b => m (c, b)) (Proc.devRef .tc main_v8) = _
  after_results <;> rfl
theorem vBe1_fun (c : Dev nD) : (vBe1 m c : S1x64.Idx → EReal) = shapeCast S1x64 (arr5 m c) shapeCasts_S64_S1x64 := by
  show StableHlo.after hostOps0 (fun b => m (c, b)) (Proc.devRef .tc main_v9) = _
  after_results <;> rfl
theorem vG2_fun (c : Dev nD) : (vG2 m c : S1x64.Idx → EReal) = shapeCast S1x64 (arr8 m c) shapeCasts_S64_S1x64 := by
  show StableHlo.after hostOps0 (fun b => m (c, b)) (Proc.devRef .tc main_v10) = _
  after_results <;> rfl
theorem vBe2_fun (c : Dev nD) : (vBe2 m c : S1x64.Idx → EReal) = shapeCast S1x64 (arr9 m c) shapeCasts_S64_S1x64 := by
  show StableHlo.after hostOps0 (fun b => m (c, b)) (Proc.devRef .tc main_v11) = _
  after_results <;> rfl
theorem vB2_fun (c : Dev nD) : (vB2 m c : S1x64.Idx → EReal) = shapeCast S1x64 (arr7 m c) shapeCasts_S64_S1x64 := by
  show StableHlo.after hostOps0 (fun b => m (c, b)) (Proc.devRef .tc main_v12) = _
  after_results <;> rfl
theorem vB3_fun (c : Dev nD) : (vB3 m c : S1x1.Idx → EReal) = shapeCast S1x1 (arr11 m c) shapeCasts_S1_S1x1 := by
  show StableHlo.after hostOps0 (fun b => m (c, b)) (Proc.devRef .tc main_v13) = _
  after_results <;> rfl

/-- A = emb · W1[0:64] + b1, at (r, k). -/
theorem V_v5 (c : Dev nD) (r : Fin 1024) (k : Fin 64) :
    vA m c (ix2 r k)
      = (∑ j : Fin 64, arr0 m c (ix2 r j) * arr2 m c (ix2 (Fin.castAdd 64 j) k)) + arr3 m c (ix1 k) := by
  rw [vA_fun m c, addf_apply, dot_apply, bias_apply]
  refine congrArg (· + _) (Finset.sum_congr rfl fun j _ => ?_)
  exact congrArg (_ * ·) (slice_top (arr2 m c) j k)

/-- B = emb · W1[64:128], at (r, k). -/
theorem V_v6 (c : Dev nD) (r : Fin 1024) (k : Fin 64) :
    vB m c (ix2 r k) = ∑ j : Fin 64, arr0 m c (ix2 r j) * arr2 m c (ix2 (Fin.natAdd 64 j) k) := by
  rw [vB_fun m c, dot_apply]
  refine Finset.sum_congr rfl fun j _ => ?_
  exact congrArg (_ * ·) (slice_bot (arr2 m c) j k)

/-- The mask as a matrix: entry (r, s) is flat entry r·1024 + s. -/
theorem V_v7 (c : Dev nD) (r s : Fin 1024) (hn : r.val * 1024 + s.val < 1048576) :
    vMask m c (ix2 r s) = arr1 m c (ix1 (⟨r.val * 1024 + s.val, hn⟩ : Fin 1048576)) := by
  rw [vMask_fun m c]
  exact cast_N_ab (arr1 m c) shapeCasts_S1048576_S1024x1024 r s hn

/-- g1 as a row. -/
theorem V_v8 (c : Dev nD) (u : Fin 1) (k : Fin 64) : vG1 m c (ix2 u k) = arr4 m c (ix1 k) := by
  rw [vG1_fun m c]
  exact shapeCast_a_1a_apply (arr4 m c) shapeCasts_S64_S1x64 u k
/-- be1 as a row. -/
theorem V_v9 (c : Dev nD) (u : Fin 1) (k : Fin 64) : vBe1 m c (ix2 u k) = arr5 m c (ix1 k) := by
  rw [vBe1_fun m c]
  exact shapeCast_a_1a_apply (arr5 m c) shapeCasts_S64_S1x64 u k
/-- g2 as a row. -/
theorem V_v10 (c : Dev nD) (u : Fin 1) (k : Fin 64) : vG2 m c (ix2 u k) = arr8 m c (ix1 k) := by
  rw [vG2_fun m c]
  exact shapeCast_a_1a_apply (arr8 m c) shapeCasts_S64_S1x64 u k
/-- be2 as a row. -/
theorem V_v11 (c : Dev nD) (u : Fin 1) (k : Fin 64) : vBe2 m c (ix2 u k) = arr9 m c (ix1 k) := by
  rw [vBe2_fun m c]
  exact shapeCast_a_1a_apply (arr9 m c) shapeCasts_S64_S1x64 u k
/-- b2 as a row. -/
theorem V_v12 (c : Dev nD) (u : Fin 1) (k : Fin 64) : vB2 m c (ix2 u k) = arr7 m c (ix1 k) := by
  rw [vB2_fun m c]
  exact shapeCast_a_1a_apply (arr7 m c) shapeCasts_S64_S1x64 u k
/-- b3 as a 1 x 1 matrix. -/
theorem V_v13 (c : Dev nD) (u v : Fin 1) : vB3 m c (ix2 u v) = arr11 m c (ix1 (0 : Fin 1)) := by
  rw [vB3_fun m c]
  refine (shapeCast_a_1a_apply (arr11 m c) shapeCasts_S1_S1x1 u v).trans ?_
  exact congrArg (fun w : Fin 1 => arr11 m c (ix1 w)) (Fin.ext (by omega))

end Cert.KernelIdeal.HostVal

end
-- ==== Proof.KFinal.lean ====
/-
  From tiles to the whole result of the tiled program.
  Grid point t = (i0, i1) stages rows i0·128 … of A, rows i1·128 … of B and tile (i0, i1) of the mask,
  and writes tile (i0, i1) of the 1024 x 1024 score matrix. Entry (p, q) of that tile is entry
  (i0·128 + p, i1·128 + q) of ONE function of the argument arrays (the score of the pair's row of
  pre-activations, times the mask entry, times the off-diagonal indicator); the 64 tiles cover the matrix;
  the host line after the launch flattens it.
-/
import proofs.«123928_j40724879901154_1_alg».proof.Proof.KOut
import proofs.«123928_j40724879901154_1_alg».proof.Proof.KHost
import Idealize.ShloMosaic.Lib.Pipeline.Value
import Idealize.ShloMosaic.Lib.StableHlo.Run

noncomputable section

namespace Cert.KernelIdeal.Final

open Cert.KernelIdeal Cert.KernelIdeal.Gen Cert.KernelIdeal.GenP Cert.KernelIdeal.HostVal Cert.KernelIdeal.Body
open Cert.EdgeSpec Cert.LibLayout
open Idealize.ShloMosaic Idealize.ShloMosaic.TcCoe Idealize.ShloMosaic.ValueIdx Idealize.SL.Sem
open Idealize.ShloMosaic.Pipeline (Dat)

variable (m : (ℓ : Loc nD τ sig) → Buf (Elt Ideal) ℓ) (ρ : Dev nD → PrngReg)

/-- The result at node pair (r, s), of the argument arrays on core `c`. -/
def pairOut (c : Dev nD) (r s : Fin 1024) : EReal :=
  out (preSplit (fun r k => arr0 m c (ix2 r k)) (fun k c' => arr2 m c (ix2 k c')) (fun c' => arr3 m c (ix1 c')))
    (fun n => arr1 m c (ix1 n)) (fun k => arr4 m c (ix1 k)) (fun k => arr5 m c (ix1 k)) (fun k c' => arr6 m c (ix2 k c'))
    (fun c' => arr7 m c (ix1 c')) (fun c' => arr8 m c (ix1 c')) (fun c' => arr9 m c (ix1 c'))
    (fun k => arr10 m c (ix2 k (0 : Fin 1))) (arr11 m c (ix1 (0 : Fin 1))) r s

/-- The 1024 x 1024 score matrix. -/
def G2 (c : Dev nD) : Vec Ideal S1024x1024 .f32 := fun i =>
  pairOut m c ⟨(i 0).val, (i 0).isLt⟩ ⟨(i 1).val, (i 1).isLt⟩

theorem G2_at (c : Dev nD) (r s : Fin 1024) (i : S1024x1024.Idx) (h0 : (i 0).val = r.val) (h1 : (i 1).val = s.val) :
    G2 m c i = pairOut m c r s := by
  unfold G2
  congr 1 <;> exact Fin.ext (by assumption)

/-- The printed index maps, decided over the 64 grid points: window 0 follows the first grid coordinate, window 1
    the second, the mask and the output both; the parameter windows stay at block (0, 0). -/
theorem idx_facts : ∀ t : Fin cfg0.N,
    win0_0.index t (0 : Fin 2) = (grid0.coords t 0).val ∧ win0_0.index t (1 : Fin 2) = 0
    ∧ win0_1.index t (0 : Fin 2) = (grid0.coords t 1).val ∧ win0_1.index t (1 : Fin 2) = 0
    ∧ win0_2.index t (0 : Fin 2) = (grid0.coords t 0).val ∧ win0_2.index t (1 : Fin 2) = (grid0.coords t 1).val
    ∧ win0_11.index t (0 : Fin 2) = (grid0.coords t 0).val ∧ win0_11.index t (1 : Fin 2) = (grid0.coords t 1).val
    ∧ (grid0.coords t 0).val < 8 ∧ (grid0.coords t 1).val < 8 :=
  (by decide +kernel : ∀ t : Fin grid0.N, _)

theorem idx_facts0 : ∀ t : Fin cfg0.N,
    win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = 0 ∧ win0_7.index t (1 : Fin 2) = 0
    ∧ win0_8.index t (0 : Fin 2) = 0 ∧ win0_8.index t (1 : Fin 2) = 0
    ∧ win0_9.index t (0 : Fin 2) = 0 ∧ win0_9.index t (1 : Fin 2) = 0
    ∧ win0_10.index t (0 : Fin 2) = 0 ∧ win0_10.index t (1 : Fin 2) = 0 :=
  (by decide +kernel : ∀ t : Fin grid0.N, _)

/-- Every tile of the 8 x 8 tiling is some grid point's. -/
theorem idx_onto : ∀ (q0 q1 : Fin 8), ∃ t : Fin cfg0.N, win0_11.index t = ![q0.val, q1.val] :=
  (by decide +kernel : ∀ (q0 q1 : Fin 8), ∃ t : Fin grid0.N, win0_11.index t = ![q0.val, q1.val])

/-! ## The staged blocks, read off the prepared arrays -/

theorem blk0 (c : Dev nD) (t : Fin cfg0.N) (p : Fin 128) (k : Fin 64) (r : Fin 1024)
    (hr : r.val = (grid0.coords t 0).val * 128 + p.val) :
    (iblk m c 0 t : Vec Ideal S128x64 .f32) (ix2 p k) = vA m c (ix2 r k) := by
  obtain ⟨e0, e1, -⟩ := idx_facts t
  show GenP.V m c main_v5 (((cfg0.win 0).blk t).view.emb (ix2 p k)) = GenP.V m c main_v5 (ix2 r k)
  congr 1; funext a; apply Fin.ext
  match a with
  | ⟨0, _⟩ => show win0_0.index t (0 : Fin 2) * 128 + 1 * p.val = r.val; omega
  | ⟨1, _⟩ => show win0_0.index t (1 : Fin 2) * 64 + 1 * k.val = k.val; omega

theorem blk1 (c : Dev nD) (t : Fin cfg0.N) (q : Fin 128) (k : Fin 64) (s : Fin 1024)
    (hs : s.val = (grid0.coords t 1).val * 128 + q.val) :
    (iblk m c 1 t : Vec Ideal S128x64 .f32) (ix2 q k) = vB m c (ix2 s k) := by
  obtain ⟨-, -, e0, e1, -⟩ := idx_facts t
  show GenP.V m c main_v6 (((cfg0.win 1).blk t).view.emb (ix2 q k)) = GenP.V m c main_v6 (ix2 s k)
  congr 1; funext a; apply Fin.ext
  match a with
  | ⟨0, _⟩ => show win0_1.index t (0 : Fin 2) * 128 + 1 * q.val = s.val; omega
  | ⟨1, _⟩ => show win0_1.index t (1 : Fin 2) * 64 + 1 * k.val = k.val; omega

theorem blk2 (c : Dev nD) (t : Fin cfg0.N) (p q : Fin 128) (r s : Fin 1024)
    (hr : r.val = (grid0.coords t 0).val * 128 + p.val) (hs : s.val = (grid0.coords t 1).val * 128 + q.val) :
    (iblk m c 2 t : Vec Ideal S128x128 .f32) (ix2 p q) = vMask m c (ix2 r s) := by
  obtain ⟨-, -, -, -, e0, e1, -⟩ := idx_facts t
  show GenP.V m c main_v7 (((cfg0.win 2).blk t).view.emb (ix2 p q)) = GenP.V m c main_v7 (ix2 r s)
  congr 1; funext a; apply Fin.ext
  match a with
  | ⟨0, _⟩ => show win0_2.index t (0 : Fin 2) * 128 + 1 * p.val = r.val; omega
  | ⟨1, _⟩ => show win0_2.index t (1 : Fin 2) * 128 + 1 * q.val = s.val; omega

theorem blk3 (c : Dev nD) (t : Fin cfg0.N) (p : Fin 64) (k : Fin 64) :
    (iblk m c 3 t : Vec Ideal S64x64 .f32) (ix2 p k) = vW2 m c (ix2 p k) := by
  obtain ⟨e0, e1, -, -, -, -, -, -, -, -, -, -, -, -, -, -⟩ := idx_facts0 t
  show GenP.V m c main_arg6 (((cfg0.win 3).blk t).view.emb (ix2 p k)) = GenP.V m c main_arg6 (ix2 p k)
  congr 1; funext a; apply Fin.ext
  match a with
  | ⟨0, _⟩ => show win0_3.index t (0 : Fin 2) * 64 + 1 * p.val = p.val; omega
  | ⟨1, _⟩ => show win0_3.index t (1 : Fin 2) * 64 + 1 * k.val = k.val; omega

theorem blk4 (c : Dev nD) (t : Fin cfg0.N) (p : Fin 1) (k : Fin 64) :
    (iblk m c 4 t : Vec Ideal S1x64 .f32) (ix2 p k) = vB2 m c (ix2 p k) := by
  obtain ⟨-, -, e0, e1, -, -, -, -, -, -, -, -, -, -, -, -⟩ := idx_facts0 t
  show GenP.V m c main_v12 (((cfg0.win 4).blk t).view.emb (ix2 p k)) = GenP.V m c main_v12 (ix2 p k)
  congr 1; funext a; apply Fin.ext
  match a with
  | ⟨0, _⟩ => show win0_4.index t (0 : Fin 2) * 1 + 1 * p.val = p.val; omega
  | ⟨1, _⟩ => show win0_4.index t (1 : Fin 2) * 64 + 1 * k.val = k.val; omega

theorem blk5 (c : Dev nD) (t : Fin cfg0.N) (p : Fin 1) (k : Fin 64) :
    (iblk m c 5 t : Vec Ideal S1x64 .f32) (ix2 p k) = vG2 m c (ix2 p k) := by
  obtain ⟨-, -, -, -, e0, e1, -, -, -, -, -, -, -, -, -, -⟩ := idx_facts0 t
  show GenP.V m c main_v10 (((cfg0.win 5).blk t).view.emb (ix2 p k)) = GenP.V m c main_v10 (ix2 p k)
  congr 1; funext a; apply Fin.ext
  match a with
  | ⟨0, _⟩ => show win0_5.index t (0 : Fin 2) * 1 + 1 * p.val = p.val; omega
  | ⟨1, _⟩ => show win0_5.index t (1 : Fin 2) * 64 + 1 * k.val = k.val; omega

theorem blk6 (c : Dev nD) (t : Fin cfg0.N) (p : Fin 1) (k : Fin 64) :
    (iblk m c 6 t : Vec Ideal S1x64 .f32) (ix2 p k) = vBe2 m c (ix2 p k) := by
  obtain ⟨-, -, -, -, -, -, e0, e1, -, -, -, -, -, -, -, -⟩ := idx_facts0 t
  show GenP.V m c main_v11 (((cfg0.win 6).blk t).view.emb (ix2 p k)) = GenP.V m c main_v11 (ix2 p k)
  congr 1; funext a; apply Fin.ext
  match a with
  | ⟨0, _⟩ => show win0_6.index t (0 : Fin 2) * 1 + 1 * p.val = p.val; omega
  | ⟨1, _⟩ => show win0_6.index t (1 : Fin 2) * 64 + 1 * k.val = k.val; omega

theorem blk7 (c : Dev nD) (t : Fin cfg0.N) (p : Fin 64) (k : Fin 1) :
    (iblk m c 7 t : Vec Ideal S64x1 .f32) (ix2 p k) = vW3 m c (ix2 p k) := by
  obtain ⟨-, -, -, -, -, -, -, -, e0, e1, -, -, -, -, -, -⟩ := idx_facts0 t
  show GenP.V m c main_arg10 (((cfg0.win 7).blk t).view.emb (ix2 p k)) = GenP.V m c main_arg10 (ix2 p k)
  congr 1; funext a; apply Fin.ext
  match a with
  | ⟨0, _⟩ => show win0_7.index t (0 : Fin 2) * 64 + 1 * p.val = p.val; omega
  | ⟨1, _⟩ => show win0_7.index t (1 : Fin 2) * 1 + 1 * k.val = k.val; omega

theorem blk8 (c : Dev nD) (t : Fin cfg0.N) (p : Fin 1) (k : Fin 1) :
    (iblk m c 8 t : Vec Ideal S1x1 .f32) (ix2 p k) = vB3 m c (ix2 p k) := by
  obtain ⟨-, -, -, -, -, -, -, -, -, -, e0, e1, -, -, -, -⟩ := idx_facts0 t
  show GenP.V m c main_v13 (((cfg0.win 8).blk t).view.emb (ix2 p k)) = GenP.V m c main_v13 (ix2 p k)
  congr 1; funext a; apply Fin.ext
  match a with
  | ⟨0, _⟩ => show win0_8.index t (0 : Fin 2) * 1 + 1 * p.val = p.val; omega
  | ⟨1, _⟩ => show win0_8.index t (1 : Fin 2) * 1 + 1 * k.val = k.val; omega

theorem blk9 (c : Dev nD) (t : Fin cfg0.N) (p : Fin 1) (k : Fin 64) :
    (iblk m c 9 t : Vec Ideal S1x64 .f32) (ix2 p k) = vG1 m c (ix2 p k) := by
  obtain ⟨-, -, -, -, -, -, -, -, -, -, -, -, e0, e1, -, -⟩ := idx_facts0 t
  show GenP.V m c main_v8 (((cfg0.win 9).blk t).view.emb (ix2 p k)) = GenP.V m c main_v8 (ix2 p k)
  congr 1; funext a; apply Fin.ext
  match a with
  | ⟨0, _⟩ => show win0_9.index t (0 : Fin 2) * 1 + 1 * p.val = p.val; omega
  | ⟨1, _⟩ => show win0_9.index t (1 : Fin 2) * 64 + 1 * k.val = k.val; omega

theorem blk10 (c : Dev nD) (t : Fin cfg0.N) (p : Fin 1) (k : Fin 64) :
    (iblk m c 10 t : Vec Ideal S1x64 .f32) (ix2 p k) = vBe1 m c (ix2 p k) := by
  obtain ⟨-, -, -, -, -, -, -, -, -, -, -, -, -, -, e0, e1⟩ := idx_facts0 t
  show GenP.V m c main_v9 (((cfg0.win 10).blk t).view.emb (ix2 p k)) = GenP.V m c main_v9 (ix2 p k)
  congr 1; funext a; apply Fin.ext
  match a with
  | ⟨0, _⟩ => show win0_10.index t (0 : Fin 2) * 1 + 1 * p.val = p.val; omega
  | ⟨1, _⟩ => show win0_10.index t (1 : Fin 2) * 64 + 1 * k.val = k.val; omega

/-! ## What a grid point writes back is its tile of the score matrix -/

theorem flushed_eq (c : Dev nD) (t : Fin cfg0.N) :
    (dats m 0 c).flushed 11 t = ((cfg0.win 11).blk t).view.read (Elt Ideal) (G2 m c) := by
  show (cfg0.win 11).cut (grid0.coords t) ((dats m 0 c).after 11 t) = _
  rw [after0_11]
  obtain ⟨-, -, -, -, -, -, e0, e1, h0, h1⟩ := idx_facts t
  funext y
  obtain ⟨p, q, rfl⟩ : ∃ (p q : Fin 128), y = ix2 p q := ⟨y 0, y 1, eq_ix2 y⟩
  have hp := p.isLt
  have hq := q.isLt
  let r : Fin 1024 := ⟨(grid0.coords t 0).val * 128 + p.val, by omega⟩
  let s : Fin 1024 := ⟨(grid0.coords t 1).val * 128 + q.val, by omega⟩
  show out0_11 (grid0.coords t) (iblk m c 0 t) (iblk m c 1 t) (iblk m c 2 t) (iblk m c 3 t) (iblk m c 4 t) (iblk m c 5 t)
      (iblk m c 6 t) (iblk m c 7 t) (iblk m c 8 t) (iblk m c 9 t) (iblk m c 10 t) (ix2 p q)
    = G2 m c (((cfg0.win 11).blk t).view.emb (ix2 p q))
  refine (out_apply (grid0.coords t) (iblk m c 0 t) (iblk m c 1 t) (iblk m c 2 t) (iblk m c 3 t) (iblk m c 4 t) (iblk m c 5 t)
      (iblk m c 6 t) (iblk m c 7 t) (iblk m c 8 t) (iblk m c 9 t) (iblk m c 10 t) p q).trans ?_
  rw [G2_at m c r s _ (by show win0_11.index t (0 : Fin 2) * 128 + 1 * p.val = (grid0.coords t 0).val * 128 + p.val; omega)
    (by show win0_11.index t (1 : Fin 2) * 128 + 1 * q.val = (grid0.coords t 1).val * 128 + q.val; omega)]
  have e9 : ∀ k : Fin 64, (iblk m c 9 t : Vec Ideal S1x64 .f32) (ix2 (0 : Fin 1) k) = arr4 m c (ix1 k) :=
    fun k => (blk9 m c t 0 k).trans (V_v8 m c 0 k)
  have e10 : ∀ k : Fin 64, (iblk m c 10 t : Vec Ideal S1x64 .f32) (ix2 (0 : Fin 1) k) = arr5 m c (ix1 k) :=
    fun k => (blk10 m c t 0 k).trans (V_v9 m c 0 k)
  have e3 : ∀ (k c' : Fin 64), (iblk m c 3 t : Vec Ideal S64x64 .f32) (ix2 k c') = arr6 m c (ix2 k c') :=
    fun k c' => (blk3 m c t k c').trans (congrFun (vW2_eq m c) _)
  have e4 : ∀ k : Fin 64, (iblk m c 4 t : Vec Ideal S1x64 .f32) (ix2 (0 : Fin 1) k) = arr7 m c (ix1 k) :=
    fun k => (blk4 m c t 0 k).trans (V_v12 m c 0 k)
  have e5 : ∀ k : Fin 64, (iblk m c 5 t : Vec Ideal S1x64 .f32) (ix2 (0 : Fin 1) k) = arr8 m c (ix1 k) :=
    fun k => (blk5 m c t 0 k).trans (V_v10 m c 0 k)
  have e6 : ∀ k : Fin 64, (iblk m c 6 t : Vec Ideal S1x64 .f32) (ix2 (0 : Fin 1) k) = arr9 m c (ix1 k) :=
    fun k => (blk6 m c t 0 k).trans (V_v11 m c 0 k)
  have e7 : ∀ k : Fin 64, (iblk m c 7 t : Vec Ideal S64x1 .f32) (ix2 k (0 : Fin 1)) = arr10 m c (ix2 k (0 : Fin 1)) :=
    fun k => (blk7 m c t k 0).trans (congrFun (vW3_eq m c) _)
  have e8 : (iblk m c 8 t : Vec Ideal S1x1 .f32) (ix2 (0 : Fin 1) (0 : Fin 1)) = arr11 m c (ix1 (0 : Fin 1)) :=
    (blk8 m c t 0 0).trans (V_v13 m c 0 0)
  have ea : ∀ k : Fin 64, (iblk m c 0 t : Vec Ideal S128x64 .f32) (ix2 p k)
      = (∑ j : Fin 64, arr0 m c (ix2 r j) * arr2 m c (ix2 (Fin.castAdd 64 j) k)) + arr3 m c (ix1 k) :=
    fun k => (blk0 m c t p k r rfl).trans (V_v5 m c r k)
  have eb : ∀ k : Fin 64, (iblk m c 1 t : Vec Ideal S128x64 .f32) (ix2 q k)
      = ∑ j : Fin 64, arr0 m c (ix2 s j) * arr2 m c (ix2 (Fin.natAdd 64 j) k) :=
    fun k => (blk1 m c t q k s rfl).trans (V_v6 m c s k)
  have em : (iblk m c 2 t : Vec Ideal S128x128 .f32) (ix2 p q)
      = arr1 m c (ix1 (⟨r.val * 1024 + s.val, by have := r.isLt; have := s.isLt; omega⟩ : Fin 1048576)) :=
    (blk2 m c t p q r s rfl rfl).trans (V_v7 m c r s _)
  simp only [e9, e10, e3, e4, e5, e6, e7, e8, ea, eb, em]
  rfl

/-! ## The tiles cover the matrix -/

theorem mem_blk (t : Fin cfg0.N) (i : S1024x1024.Idx) :
    i ∈ ((cfg0.win 11).blk t).view.set ↔ ∀ a : Fin 2, win0_11.index t a * S128x128.size a ≤ (i a).val ∧ (i a).val < win0_11.index t a * S128x128.size a + S128x128.size a := by
  show i ∈ ((View.whole main_v14).slice (win0_11.rect t)).set ↔ _
  rw [View.set_slice_whole, Rect.mem_set_unit]
  exact Iff.rfl

theorem cover (i : S1024x1024.Idx) :
    ∃ t : Fin cfg0.N, (cfg0.win 11).flush t = true ∧ i ∈ ((cfg0.win 11).blk t).view.set := by
  have hi0 : (i 0).val < 1024 := (i 0).isLt
  have hi1 : (i 1).val < 1024 := (i 1).isLt
  obtain ⟨t, ht⟩ := idx_onto ⟨(i 0).val / 128, by omega⟩ ⟨(i 1).val / 128, by omega⟩
  have q0 : win0_11.index t (0 : Fin 2) = (i 0).val / 128 := congrFun ht 0
  have q1 : win0_11.index t (1 : Fin 2) = (i 1).val / 128 := congrFun ht 1
  refine ⟨t, flush0_11 t, ?_⟩
  rw [mem_blk]
  intro a
  match a with
  | ⟨0, _⟩ => show win0_11.index t (0 : Fin 2) * 128 ≤ (i 0).val ∧ (i 0).val < win0_11.index t (0 : Fin 2) * 128 + 128; omega
  | ⟨1, _⟩ => show win0_11.index t (1 : Fin 2) * 128 ≤ (i 1).val ∧ (i 1).val < win0_11.index t (1 : Fin 2) * 128 + 128; omega

/-- After the launch the output array holds the score matrix. -/
theorem final (c : Dev nD) : (dats m 0 c).arrAt 11 cfg0.N = G2 m c :=
  (dats m 0 c).arrAt_eq_of_cover 11 (G2 m c) (fun t _ => flushed_eq m c t) cover

/-! ## The host line after the launch flattens the matrix -/

/-- The flat result: entry n is the node pair (n / 1024, n % 1024). -/
def flat (c : Dev nD) : Vec Ideal S1048576 .f32 := fun i =>
  pairOut m c (rowOf ⟨(i 0).val, (i 0).isLt⟩) (colOf ⟨(i 0).val, (i 0).isLt⟩)

theorem tail_eq (c : Dev nD) :
    Pipeline.afterTail₀ cfgs (dats m) 0 (V0 m) [hostOps1] c main_v15 = flat m c := by
  unfold Pipeline.afterTail₀
  show StableHlo.after hostOps1 _ (Proc.devRef .tc main_v15) = _
  after_results
  funext i
  obtain ⟨n, rfl⟩ : ∃ n : Fin 1048576, i = ix1 n := ⟨i 0, eq_ix1 i⟩
  have hw : Pipeline.withArrays (cfgs 0).spec c (V0 m c) (fun w => (dats m 0 c).arrAt w (cfgs 0).N) (Proc.tc.devRef main_v14)
      = G2 m c :=
    (Pipeline.withArrays_arr spec0 launch0.win.arr_inj c _ _ 11).trans (final m c)
  show shapeCast S1048576 (Pipeline.withArrays (cfgs 0).spec c (V0 m c) (fun w => (dats m 0 c).arrAt w (cfgs 0).N)
      (Proc.tc.devRef main_v14)) shapeCasts_S1024x1024_S1048576 (ix1 n) = pairOut m c (rowOf n) (colOf n)
  refine (congrArg (fun v : Vec Ideal S1024x1024 .f32 => shapeCast S1048576 v shapeCasts_S1024x1024_S1048576 (ix1 n)) hw).trans ?_
  refine (cast_ab_N (G2 m c) shapeCasts_S1024x1024_S1048576 n (rowOf n) (colOf n) (Nat.div_add_mod' n.val 1024).symm).trans ?_
  exact G2_at m c _ _ _ rfl rfl

/-! ## The run, read -/

/-- Every weakly fair execution ends with the result buffer at the flat score array and the arguments unchanged. -/
theorem run : θ_run defs (onTc (τ := τ) (main (F := Ideal))) ⟨m, fun _ => 0, ρ⟩ (fun r => ∀ c : Dev nD,
      r.2.mem ((c.tc : Thread nD τ).loc main_v15) = flat m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  (θ_run defs _ _).mono (fun _ h c => ⟨((h c).2 main_v15 (Pipeline.mem_restRefs_of main_v15 (by decide) (by decide))).trans (tail_eq m c),
      (((h c).2 main_arg0 (Pipeline.mem_restRefs_of main_arg0 (by decide) (by decide))).trans (W_main_arg0 m (dats m) c)),
      (((h c).2 main_arg1 (Pipeline.mem_restRefs_of main_arg1 (by decide) (by decide))).trans (W_main_arg1 m (dats m) c)),
      (((h c).2 main_arg2 (Pipeline.mem_restRefs_of main_arg2 (by decide) (by decide))).trans (W_main_arg2 m (dats m) c)),
      (((h c).2 main_arg3 (Pipeline.mem_restRefs_of main_arg3 (by decide) (by decide))).trans (W_main_arg3 m (dats m) c)),
      (((h c).2 main_arg4 (Pipeline.mem_restRefs_of main_arg4 (by decide) (by decide))).trans (W_main_arg4 m (dats m) c)),
      (((h c).2 main_arg5 (Pipeline.mem_restRefs_of main_arg5 (by decide) (by decide))).trans (W_main_arg5 m (dats m) c)),
      ((h c).1 3).trans (((dats m 0 c).arrAt_in 3 rfl _).trans ((A_eq m c 3).trans (V_main_arg6 m c))),
      (((h c).2 main_arg7 (Pipeline.mem_restRefs_of main_arg7 (by decide) (by decide))).trans (W_main_arg7 m (dats m) c)),
      (((h c).2 main_arg8 (Pipeline.mem_restRefs_of main_arg8 (by decide) (by decide))).trans (W_main_arg8 m (dats m) c)),
      (((h c).2 main_arg9 (Pipeline.mem_restRefs_of main_arg9 (by decide) (by decide))).trans (W_main_arg9 m (dats m) c)),
      ((h c).1 7).trans (((dats m 0 c).arrAt_in 7 rfl _).trans ((A_eq m c 7).trans (V_main_arg10 m c))),
      (((h c).2 main_arg11 (Pipeline.mem_restRefs_of main_arg11 (by decide) (by decide))).trans (W_main_arg11 m (dats m) c))⟩) (run_main m ρ)

end Cert.KernelIdeal.Final

end
-- ==== Proof.RefPre.lean ====
/-
  The reference's first stage read at one entry: row n = r·1024 + s of the 1048576 x 128 matrix of
  concatenated embeddings is [emb r ; emb s]; its product with W1 plus b1 is the row of
  pre-activations of the node pair (r, s).
-/
import proofs.«123928_j40724879901154_1_alg».proof.Proof.Gen.ReferenceIdeal.Read
import proofs.«123928_j40724879901154_1_alg».proof.Proof.Spec
import proofs.«123928_j40724879901154_1_alg».proof.Proof.LibLayout

noncomputable section

namespace Cert.ReferenceIdeal.RefValue

open Idealize.ShloMosaic Idealize.ShloMosaic.ValueIdx Cert.ReferenceIdeal Cert.ReferenceIdeal.Gen Cert.ReferenceIdeal.Read Cert.EdgeSpec Cert.LibLayout

/-- The first piece of the concatenation: the embedding of the row node, repeated along the column axis. -/
private theorem v1_read (x0 : (⟨S1024x64, .f32⟩ : BufTy).Contents (Elt Ideal)) (r s : Fin 1024) (k : Fin 64) :
    val_main_v1 (F := Ideal) x0 (ix3 r s k) = x0 (ix2 r k) := by
  rw [val_main_v1_apply, val_main_v0_apply]
  exact congrArg x0 (funext fun a => Fin.ext (by match a with | ⟨0, _⟩ => rfl | ⟨1, _⟩ => rfl))

/-- The second piece: the embedding of the column node, repeated along the row axis. -/
private theorem v3_read (x0 : (⟨S1024x64, .f32⟩ : BufTy).Contents (Elt Ideal)) (r s : Fin 1024) (k : Fin 64) :
    val_main_v3 (F := Ideal) x0 (ix3 r s k) = x0 (ix2 s k) := by
  rw [val_main_v3_apply, val_main_v2_apply]
  exact congrArg x0 (funext fun a => Fin.ext (by match a with | ⟨0, _⟩ => rfl | ⟨1, _⟩ => rfl))

/-- Entry (r, s, k) of the concatenated array is entry k of [emb r ; emb s]. -/
private theorem v4_read (x0 : (⟨S1024x64, .f32⟩ : BufTy).Contents (Elt Ideal)) (r s : Fin 1024) (k : Fin 128) :
    val_main_v4 (F := Ideal) x0 (ix3 r s k) = cat (fun r k => x0 (ix2 r k)) r s k := by
  unfold val_main_v4 cat
  by_cases hk : k.val < 64
  · rw [dif_pos hk]
    refine (concatenate_pair_apply_left (t := S1024x1024x128) (s₁ := S1024x1024x64) (s₂ := S1024x1024x64) (2 : Fin 3) _ _ concatenates_S1024x1024x64_S1024x1024x64_S1024x1024x128_d2
      (ix3 r s k) rfl (ix3 r s (⟨k.val, hk⟩ : Fin 64)) (fun b => ?_)).trans (v1_read x0 r s _)
    match b with
    | ⟨0, _⟩ => rfl
    | ⟨1, _⟩ => rfl
    | ⟨2, _⟩ => rfl
  · rw [dif_neg hk]
    refine (concatenate_pair_apply_right (t := S1024x1024x128) (s₁ := S1024x1024x64) (s₂ := S1024x1024x64) (2 : Fin 3) _ _ concatenates_S1024x1024x64_S1024x1024x64_S1024x1024x128_d2
      (ix3 r s k) rfl rfl (ix3 r s (⟨k.val - 64, by have := k.isLt; omega⟩ : Fin 64)) (fun b hb => ?_) ?_).trans (v3_read x0 r s _)
    · match b with
      | ⟨0, _⟩ => rfl
      | ⟨1, _⟩ => rfl
      | ⟨2, _⟩ => exact absurd rfl hb
    · show k.val - 64 + 64 = k.val
      omega

/-- The bias, repeated along the rows. -/
private theorem v8_read (x3 : (⟨S64, .f32⟩ : BufTy).Contents (Elt Ideal)) (n : Fin 1048576) (c : Fin 64) :
    val_main_v8 (F := Ideal) x3 (ix2 n c) = x3 (ix1 c) := by
  rw [val_main_v8_apply, val_main_v7_apply]
  exact congrArg x3 (funext fun a => Fin.ext (by match a with | ⟨0, _⟩ => rfl))

/-- Row n = r·1024 + s of the flattened array is the row (r, s) of the concatenated one. -/
private theorem v5_read (x0 : (⟨S1024x64, .f32⟩ : BufTy).Contents (Elt Ideal)) (n : Fin 1048576) (k : Fin 128) :
    val_main_v5 (F := Ideal) x0 (ix2 n k) = cat (fun r k => x0 (ix2 r k)) (rowOf n) (colOf n) k := by
  rw [val_main_v5_apply, ← v4_read]
  refine congrArg (val_main_v4 (F := Ideal) x0) (funext fun a => Fin.ext ?_)
  have hn := n.isLt
  have hk := k.isLt
  match a with
  | ⟨0, _⟩ => show (n.val * 128 + k.val) / 131072 = n.val / 1024; omega
  | ⟨1, _⟩ => show (n.val * 128 + k.val) / 128 % 1024 = n.val % 1024; omega
  | ⟨2, _⟩ => show (n.val * 128 + k.val) % 128 = k.val; omega

/-- Entry (n, c) of the reference's first linear layer. -/
theorem ref_pre (x0 : (⟨S1024x64, .f32⟩ : BufTy).Contents (Elt Ideal)) (x2 : (⟨S128x64, .f32⟩ : BufTy).Contents (Elt Ideal)) (x3 : (⟨S64, .f32⟩ : BufTy).Contents (Elt Ideal))
    (n : Fin 1048576) (c : Fin 64) :
    val_main_v9 (F := Ideal) x0 x2 x3 (ix2 n c)
      = preCat (fun r k => x0 (ix2 r k)) (fun k c => x2 (ix2 k c)) (fun c => x3 (ix1 c)) (rowOf n) (colOf n) c := by
  rw [val_main_v9_apply]
  show val_main_v6 (F := Ideal) x0 x2 (ix2 n c) + val_main_v8 (F := Ideal) x3 (ix2 n c) = _
  -- the contraction over the 128 entries of row n, term by term, plus the bias
  rw [v8_read, val_main_v6_apply]
  unfold preCat
  refine congrArg (· + x3 (ix1 c)) (Finset.sum_congr rfl fun k _ => ?_)
  have el : lidx_main_v6 (ix2 n c) k = ix2 n k :=
    funext fun a => Fin.ext (by match a with | ⟨0, _⟩ => rfl | ⟨1, _⟩ => rfl)
  have er : ridx_main_v6 (ix2 n c) k = ix2 k c :=
    funext fun a => Fin.ext (by match a with | ⟨0, _⟩ => rfl | ⟨1, _⟩ => rfl)
  rw [el, er, v5_read]

end Cert.ReferenceIdeal.RefValue

end
-- ==== Proof.RefDiag.lean ====
/-
  The reference's off-diagonal indicator read at one entry: one minus the identity matrix, flattened;
  flat entry n is the pair (n / 1024, n % 1024), whose two 32-bit words are equal exactly when the numbers are.
-/
import proofs.«123928_j40724879901154_1_alg».proof.Proof.Gen.ReferenceIdeal.Read
import proofs.«123928_j40724879901154_1_alg».proof.Proof.Spec
import proofs.«123928_j40724879901154_1_alg».proof.Proof.LibLayout

noncomputable section

namespace Cert.ReferenceIdeal.RefValue

open Idealize.ShloMosaic Idealize.ShloMosaic.ValueIdx Cert.ReferenceIdeal Cert.ReferenceIdeal.Gen Cert.ReferenceIdeal.Read Cert.EdgeSpec Cert.LibLayout

/-- Two numbers below 1024, as 32-bit words: the equality test on the words (after adding the zero word to the first)
    gives the one-bit word 1 exactly when the numbers are equal. -/
private theorem cmp_words (a b : ℕ) (ha : a < 1024) (hb : b < 1024) :
    IntOp.cmpi .eq (IntOp.addi (BitVec.ofNat 32 a) 0#32) (BitVec.ofNat 32 b) = if a = b then 1#1 else 0#1 := by
  unfold IntOp.cmpi IntOp.addi
  rw [BitVec.add_zero]
  by_cases h : a = b
  · subst h
    rw [if_pos rfl]
    simp
  · rw [if_neg h]
    have hne : BitVec.ofNat 32 a ≠ BitVec.ofNat 32 b := fun he => by
      have := congrArg BitVec.toNat he
      rw [BitVec.toNat_ofNat, BitVec.toNat_ofNat, Nat.mod_eq_of_lt (by omega), Nat.mod_eq_of_lt (by omega)] at this
      exact h this
    rw [beq_eq_false_iff_ne.mpr hne]
    rfl

/-- Flat entry n of `1 - eye`. -/
theorem ref_offdiag (n : Fin 1048576) :
    val_main_v77 (F := Ideal) (ix1 n) = offDiag (n.val / 1024) (n.val % 1024) := by
  rw [val_main_v77_apply, val_main_v76_apply, val_main_cst_9_apply, val_main_v75_apply, val_main_v74_apply,
    val_main_v73_apply, val_main_v72_apply, val_main_v71_apply, val_main_c_apply, val_main_v70_apply, val_main_v69_apply]
  -- the entry is 1.0 minus the one-bit result of comparing the words of n / 1024 and n % 1024, read as a number
  have hn := n.isLt
  show Ideal.ofBits .f32 0x3F800000#32
      - (((IntOp.cmpi .eq (IntOp.addi (BitVec.ofNat 32 (n.val / 1024)) 0#32) (BitVec.ofNat 32 (n.val % 1024))).toNat : ℝ) : EReal) = _
  have h1 : Ideal.ofBits .f32 0x3F800000#32 = 1 := IdealRules.sign_bit.ideal_onePat .f32
  rw [cmp_words _ _ (by omega) (by omega), h1]
  unfold offDiag
  by_cases h : n.val / 1024 = n.val % 1024
  · -- on the diagonal: 1 - 1 = 0 (both finite)
    rw [if_pos h, if_pos h]
    show (1 : EReal) - (((1 : ℕ) : ℝ) : EReal) = 0
    rw [Nat.cast_one, EReal.coe_one, ← EReal.coe_one, ← EReal.coe_sub, sub_self, EReal.coe_zero]
  · -- off the diagonal: 1 - 0 = 1
    rw [if_neg h, if_neg h]
    show (1 : EReal) - (((0 : ℕ) : ℝ) : EReal) = 1
    rw [Nat.cast_zero, EReal.coe_zero, sub_zero]

end Cert.ReferenceIdeal.RefValue

end
-- ==== Proof.RefMlp.lean ====
/-
  The reference's layers after the first linear one, read row by row: LayerNorm and ReLU of a row of the
  first linear layer's result; the second linear layer, LayerNorm and ReLU of that; the last linear layer.
  Every row of the 1048576 is treated alike, and each step reads only the row it belongs to.
-/
import proofs.«123928_j40724879901154_1_alg».proof.Proof.Gen.ReferenceIdeal.Read
import proofs.«123928_j40724879901154_1_alg».proof.Proof.Spec
import proofs.«123928_j40724879901154_1_alg».proof.Proof.LibLayout

noncomputable section

namespace Cert.ReferenceIdeal.RefValue

open Idealize.ShloMosaic Idealize.ShloMosaic.ValueIdx Cert.ReferenceIdeal Cert.ReferenceIdeal.Gen Cert.ReferenceIdeal.Read Cert.EdgeSpec Cert.LibLayout

/-! ## The first LayerNorm -/

/-- The mean of row n of the first linear layer's result. -/
theorem ln1_mean (x0 : (⟨S1024x64, .f32⟩ : BufTy).Contents (Elt Ideal)) (x2 : (⟨S128x64, .f32⟩ : BufTy).Contents (Elt Ideal)) (x3 : (⟨S64, .f32⟩ : BufTy).Contents (Elt Ideal))
    (n : Fin 1048576) (u : Fin 1) :
    val_main_v13 (F := Ideal) x0 x2 x3 (ix2 n u)
      = mean64 (fun k => val_main_v9 (F := Ideal) x0 x2 x3 (ix2 n k)) := by
  have e10 : ∀ k : Fin 64, idx_main_v10 (idx_main_v11 (ix2 n u)) k = ix2 n k := fun k =>
    funext fun a => Fin.ext (by match a with | ⟨0, _⟩ => rfl | ⟨1, _⟩ => rfl)
  simp only [val_main_v13_apply, val_main_v11_apply, val_main_v10_apply, val_main_v12_apply, val_main_cst_apply,
    val_main_cst_0_apply, e10]
  simp only [Ideal.hostDivf_def, Ideal.ofBits_def, Ideal.ofBits_zero_f32, zero_add, mean64, c64]

/-- The variance of row n of the first linear layer's result. -/
theorem ln1_var (x0 : (⟨S1024x64, .f32⟩ : BufTy).Contents (Elt Ideal)) (x2 : (⟨S128x64, .f32⟩ : BufTy).Contents (Elt Ideal)) (x3 : (⟨S64, .f32⟩ : BufTy).Contents (Elt Ideal))
    (n : Fin 1048576) (u : Fin 1) :
    val_main_v20 (F := Ideal) x0 x2 x3 (ix2 n u)
      = var64 (fun k => val_main_v9 (F := Ideal) x0 x2 x3 (ix2 n k)) := by
  have e17 : ∀ k : Fin 64, idx_main_v17 (idx_main_v18 (ix2 n u)) k = ix2 n k := fun k =>
    funext fun a => Fin.ext (by match a with | ⟨0, _⟩ => rfl | ⟨1, _⟩ => rfl)
  have e14 : ∀ k : Fin 64, idx_main_v14 (ix2 n k) = ix2 n (0 : Fin 1) := fun k =>
    funext fun a => Fin.ext (by match a with | ⟨0, _⟩ => rfl | ⟨1, _⟩ => rfl)
  simp only [val_main_v20_apply, val_main_v18_apply, val_main_v17_apply, val_main_v19_apply, val_main_cst_1_apply,
    val_main_cst_2_apply, e17, val_main_v16_apply, val_main_v15_apply, val_main_v14_apply, e14, ln1_mean]
  simp only [Ideal.hostDivf_def, Ideal.ofBits_def, Ideal.ofBits_zero_f32, zero_add, Ideal.mulf_def, Ideal.subf_def,
    var64, mean64, c64]

/-- Row n after the first LayerNorm and ReLU. -/
theorem ref_ln1 (x0 : (⟨S1024x64, .f32⟩ : BufTy).Contents (Elt Ideal)) (x2 : (⟨S128x64, .f32⟩ : BufTy).Contents (Elt Ideal)) (x3 x4 x5 : (⟨S64, .f32⟩ : BufTy).Contents (Elt Ideal))
    (n : Fin 1048576) (c : Fin 64) :
    val_main_v34 (F := Ideal) x0 x2 x3 x4 x5 (ix2 n c)
      = lnRelu (fun k => x4 (ix1 k)) (fun k => x5 (ix1 k)) (fun k => val_main_v9 (F := Ideal) x0 x2 x3 (ix2 n k)) c := by
  have e21 : idx_main_v21 (ix2 n c) = ix2 n (0 : Fin 1) :=
    funext fun a => Fin.ext (by match a with | ⟨0, _⟩ => rfl | ⟨1, _⟩ => rfl)
  have e26 : idx_main_v26 (ix2 n c) = ix2 n (0 : Fin 1) :=
    funext fun a => Fin.ext (by match a with | ⟨0, _⟩ => rfl | ⟨1, _⟩ => rfl)
  have e28 : idx_main_v28 (idx_main_v29 (ix2 n c)) = ix1 c :=
    funext fun a => Fin.ext (by match a with | ⟨0, _⟩ => rfl)
  have e31 : idx_main_v31 (idx_main_v32 (ix2 n c)) = ix1 c :=
    funext fun a => Fin.ext (by match a with | ⟨0, _⟩ => rfl)
  simp only [val_main_v34_apply, val_main_v33_apply, val_main_v30_apply, val_main_v27_apply, val_main_v22_apply,
    val_main_v21_apply, e21, val_main_v26_apply, e26, val_main_v25_apply, val_main_v24_apply, val_main_v23_apply,
    val_main_cst_3_apply, val_main_v29_apply, val_main_v28_apply, e28, val_main_v32_apply, val_main_v31_apply, e31,
    val_main_call0_v0_apply, val_main_call0_cst_apply, ln1_mean, ln1_var]
  simp only [Ideal.maximumf_def, Ideal.addf_def, Ideal.mulf_def, Ideal.subf_def, Ideal.hostUnary_rsqrt_def,
    Ideal.ofBits_def, Ideal.ofBits_zero_f32, lnRelu, eps]

/-! ## The second linear layer and the second LayerNorm -/

/-- Row n of the second linear layer's result. -/
theorem ln2_lin (x0 : (⟨S1024x64, .f32⟩ : BufTy).Contents (Elt Ideal)) (x2 : (⟨S128x64, .f32⟩ : BufTy).Contents (Elt Ideal)) (x3 x4 x5 : (⟨S64, .f32⟩ : BufTy).Contents (Elt Ideal)) (x6 : (⟨S64x64, .f32⟩ : BufTy).Contents (Elt Ideal)) (x7 : (⟨S64, .f32⟩ : BufTy).Contents (Elt Ideal))
    (n : Fin 1048576) (c : Fin 64) :
    val_main_v38 (F := Ideal) x0 x2 x3 x4 x5 x6 x7 (ix2 n c)
      = lin (fun k c => x6 (ix2 k c)) (fun c => x7 (ix1 c)) (fun k => val_main_v34 (F := Ideal) x0 x2 x3 x4 x5 (ix2 n k)) c := by
  have el : ∀ k : Fin 64, lidx_main_v35 (ix2 n c) k = ix2 n k := fun k =>
    funext fun a => Fin.ext (by match a with | ⟨0, _⟩ => rfl | ⟨1, _⟩ => rfl)
  have er : ∀ k : Fin 64, ridx_main_v35 (ix2 n c) k = ix2 k c := fun k =>
    funext fun a => Fin.ext (by match a with | ⟨0, _⟩ => rfl | ⟨1, _⟩ => rfl)
  have e36 : idx_main_v36 (idx_main_v37 (ix2 n c)) = ix1 c :=
    funext fun a => Fin.ext (by match a with | ⟨0, _⟩ => rfl)
  simp only [val_main_v38_apply, val_main_v35_apply, el, er, val_main_v37_apply, val_main_v36_apply, e36]
  simp only [Ideal.addf_def, lin]

/-- The mean of row n of the second linear layer's result. -/
theorem ln2_mean (x0 : (⟨S1024x64, .f32⟩ : BufTy).Contents (Elt Ideal)) (x2 : (⟨S128x64, .f32⟩ : BufTy).Contents (Elt Ideal)) (x3 x4 x5 : (⟨S64, .f32⟩ : BufTy).Contents (Elt Ideal)) (x6 : (⟨S64x64, .f32⟩ : BufTy).Contents (Elt Ideal)) (x7 : (⟨S64, .f32⟩ : BufTy).Contents (Elt Ideal))
    (n : Fin 1048576) (u : Fin 1) :
    val_main_v42 (F := Ideal) x0 x2 x3 x4 x5 x6 x7 (ix2 n u)
      = mean64 (fun k => val_main_v38 (F := Ideal) x0 x2 x3 x4 x5 x6 x7 (ix2 n k)) := by
  have e39 : ∀ k : Fin 64, idx_main_v39 (idx_main_v40 (ix2 n u)) k = ix2 n k := fun k =>
    funext fun a => Fin.ext (by match a with | ⟨0, _⟩ => rfl | ⟨1, _⟩ => rfl)
  simp only [val_main_v42_apply, val_main_v40_apply, val_main_v39_apply, val_main_v41_apply, val_main_cst_4_apply,
    val_main_cst_5_apply, e39]
  simp only [Ideal.hostDivf_def, Ideal.ofBits_def, Ideal.ofBits_zero_f32, zero_add, mean64, c64]

/-- The variance of row n of the second linear layer's result. -/
theorem ln2_var (x0 : (⟨S1024x64, .f32⟩ : BufTy).Contents (Elt Ideal)) (x2 : (⟨S128x64, .f32⟩ : BufTy).Contents (Elt Ideal)) (x3 x4 x5 : (⟨S64, .f32⟩ : BufTy).Contents (Elt Ideal)) (x6 : (⟨S64x64, .f32⟩ : BufTy).Contents (Elt Ideal)) (x7 : (⟨S64, .f32⟩ : BufTy).Contents (Elt Ideal))
    (n : Fin 1048576) (u : Fin 1) :
    val_main_v49 (F := Ideal) x0 x2 x3 x4 x5 x6 x7 (ix2 n u)
      = var64 (fun k => val_main_v38 (F := Ideal) x0 x2 x3 x4 x5 x6 x7 (ix2 n k)) := by
  have e46 : ∀ k : Fin 64, idx_main_v46 (idx_main_v47 (ix2 n u)) k = ix2 n k := fun k =>
    funext fun a => Fin.ext (by match a with | ⟨0, _⟩ => rfl | ⟨1, _⟩ => rfl)
  have e43 : ∀ k : Fin 64, idx_main_v43 (ix2 n k) = ix2 n (0 : Fin 1) := fun k =>
    funext fun a => Fin.ext (by match a with | ⟨0, _⟩ => rfl | ⟨1, _⟩ => rfl)
  simp only [val_main_v49_apply, val_main_v47_apply, val_main_v46_apply, val_main_v48_apply, val_main_cst_6_apply,
    val_main_cst_7_apply, e46, val_main_v45_apply, val_main_v44_apply, val_main_v43_apply, e43, ln2_mean]
  simp only [Ideal.hostDivf_def, Ideal.ofBits_def, Ideal.ofBits_zero_f32, zero_add, Ideal.mulf_def, Ideal.subf_def,
    var64, mean64, c64]

/-- Row n after the second linear layer, LayerNorm and ReLU. -/
theorem ref_ln2 (x0 : (⟨S1024x64, .f32⟩ : BufTy).Contents (Elt Ideal)) (x2 : (⟨S128x64, .f32⟩ : BufTy).Contents (Elt Ideal)) (x3 x4 x5 : (⟨S64, .f32⟩ : BufTy).Contents (Elt Ideal)) (x6 : (⟨S64x64, .f32⟩ : BufTy).Contents (Elt Ideal)) (x7 x8 x9 : (⟨S64, .f32⟩ : BufTy).Contents (Elt Ideal))
    (n : Fin 1048576) (c : Fin 64) :
    val_main_v63 (F := Ideal) x0 x2 x3 x4 x5 x6 x7 x8 x9 (ix2 n c)
      = lnRelu (fun k => x8 (ix1 k)) (fun k => x9 (ix1 k))
          (lin (fun k c => x6 (ix2 k c)) (fun c => x7 (ix1 c)) (fun k => val_main_v34 (F := Ideal) x0 x2 x3 x4 x5 (ix2 n k))) c := by
  have e50 : idx_main_v50 (ix2 n c) = ix2 n (0 : Fin 1) :=
    funext fun a => Fin.ext (by match a with | ⟨0, _⟩ => rfl | ⟨1, _⟩ => rfl)
  have e55 : idx_main_v55 (ix2 n c) = ix2 n (0 : Fin 1) :=
    funext fun a => Fin.ext (by match a with | ⟨0, _⟩ => rfl | ⟨1, _⟩ => rfl)
  have e57 : idx_main_v57 (idx_main_v58 (ix2 n c)) = ix1 c :=
    funext fun a => Fin.ext (by match a with | ⟨0, _⟩ => rfl)
  have e60 : idx_main_v60 (idx_main_v61 (ix2 n c)) = ix1 c :=
    funext fun a => Fin.ext (by match a with | ⟨0, _⟩ => rfl)
  have hrow : (fun k => val_main_v38 (F := Ideal) x0 x2 x3 x4 x5 x6 x7 (ix2 n k))
      = lin (fun k c => x6 (ix2 k c)) (fun c => x7 (ix1 c)) (fun k => val_main_v34 (F := Ideal) x0 x2 x3 x4 x5 (ix2 n k)) :=
    funext fun k => ln2_lin x0 x2 x3 x4 x5 x6 x7 n k
  simp only [val_main_v63_apply, val_main_v62_apply, val_main_v59_apply, val_main_v56_apply, val_main_v51_apply,
    val_main_v50_apply, e50, val_main_v55_apply, e55, val_main_v54_apply, val_main_v53_apply, val_main_v52_apply,
    val_main_cst_8_apply, val_main_v58_apply, val_main_v57_apply, e57, val_main_v61_apply, val_main_v60_apply, e60,
    val_main_call1_v0_apply, val_main_call1_cst_apply, ln2_mean, ln2_var]
  rw [← hrow]
  simp only [Ideal.maximumf_def, Ideal.addf_def, Ideal.mulf_def, Ideal.subf_def, Ideal.hostUnary_rsqrt_def,
    Ideal.ofBits_def, Ideal.ofBits_zero_f32, lnRelu, eps]

/-! ## The last linear layer -/

/-- The score of row n: the last linear layer. -/
theorem ref_score (x0 : (⟨S1024x64, .f32⟩ : BufTy).Contents (Elt Ideal)) (x2 : (⟨S128x64, .f32⟩ : BufTy).Contents (Elt Ideal)) (x3 x4 x5 : (⟨S64, .f32⟩ : BufTy).Contents (Elt Ideal)) (x6 : (⟨S64x64, .f32⟩ : BufTy).Contents (Elt Ideal)) (x7 x8 x9 : (⟨S64, .f32⟩ : BufTy).Contents (Elt Ideal)) (x10 : (⟨S64x1, .f32⟩ : BufTy).Contents (Elt Ideal)) (x11 : (⟨S1, .f32⟩ : BufTy).Contents (Elt Ideal))
    (n : Fin 1048576) :
    val_main_v68 (F := Ideal) x0 x2 x3 x4 x5 x6 x7 x8 x9 x10 x11 (ix1 n)
      = (∑ k : Fin 64, val_main_v63 (F := Ideal) x0 x2 x3 x4 x5 x6 x7 x8 x9 (ix2 n k) * x10 (ix2 k (0 : Fin 1)))
        + x11 (ix1 (0 : Fin 1)) := by
  have e68 : idx_main_v68 (ix1 n) = ix2 n (0 : Fin 1) :=
    funext fun a => Fin.ext (by match a with | ⟨0, _⟩ => exact Nat.div_one _ | ⟨1, _⟩ => rfl)
  have el : ∀ k : Fin 64, lidx_main_v64 (ix2 n (0 : Fin 1)) k = ix2 n k := fun k =>
    funext fun a => Fin.ext (by match a with | ⟨0, _⟩ => rfl | ⟨1, _⟩ => rfl)
  have er : ∀ k : Fin 64, ridx_main_v64 (ix2 n (0 : Fin 1)) k = ix2 k (0 : Fin 1) := fun k =>
    funext fun a => Fin.ext (by match a with | ⟨0, _⟩ => rfl | ⟨1, _⟩ => rfl)
  have e65 : idx_main_v65 (idx_main_v66 (ix2 n (0 : Fin 1))) = ix1 (0 : Fin 1) :=
    funext fun a => Fin.ext (by match a with | ⟨0, _⟩ => rfl)
  simp only [val_main_v68_apply, e68, val_main_v67_apply, val_main_v64_apply, el, er, val_main_v66_apply,
    val_main_v65_apply, e65]
  simp only [Ideal.addf_def]

end Cert.ReferenceIdeal.RefValue

end
-- ==== Proof.RefRes.lean ====
/-
  The reference's result at flat entry n: the score of the pre-activation row of the node pair
  (n / 1024, n % 1024), times the mask entry, times the off-diagonal indicator.
-/
import proofs.«123928_j40724879901154_1_alg».proof.Proof.RefPre
import proofs.«123928_j40724879901154_1_alg».proof.Proof.RefDiag
import proofs.«123928_j40724879901154_1_alg».proof.Proof.RefMlp

noncomputable section

namespace Cert.ReferenceIdeal.RefValue

open Idealize.ShloMosaic Idealize.ShloMosaic.ValueIdx Cert.ReferenceIdeal Cert.ReferenceIdeal.Gen Cert.ReferenceIdeal.Read Cert.EdgeSpec Cert.LibLayout

/-- The reference's result is `res` over the concatenated first row. -/
theorem ref_res (x0 : (⟨S1024x64, .f32⟩ : BufTy).Contents (Elt Ideal)) (x1 : (⟨S1048576, .f32⟩ : BufTy).Contents (Elt Ideal)) (x2 : (⟨S128x64, .f32⟩ : BufTy).Contents (Elt Ideal)) (x3 x4 x5 : (⟨S64, .f32⟩ : BufTy).Contents (Elt Ideal)) (x6 : (⟨S64x64, .f32⟩ : BufTy).Contents (Elt Ideal)) (x7 x8 x9 : (⟨S64, .f32⟩ : BufTy).Contents (Elt Ideal)) (x10 : (⟨S64x1, .f32⟩ : BufTy).Contents (Elt Ideal)) (x11 : (⟨S1, .f32⟩ : BufTy).Contents (Elt Ideal))
    (n : Fin 1048576) :
    val_main_v79 (F := Ideal) x0 x1 x2 x3 x4 x5 x6 x7 x8 x9 x10 x11 (ix1 n)
      = res (preCat (fun r k => x0 (ix2 r k)) (fun k c => x2 (ix2 k c)) (fun c => x3 (ix1 c))) (fun n => x1 (ix1 n))
          (fun k => x4 (ix1 k)) (fun k => x5 (ix1 k)) (fun k c => x6 (ix2 k c)) (fun c => x7 (ix1 c))
          (fun c => x8 (ix1 c)) (fun c => x9 (ix1 c)) (fun k => x10 (ix2 k (0 : Fin 1))) (x11 (ix1 (0 : Fin 1))) n := by
  -- the row entering the second linear layer: LayerNorm and ReLU of the concatenated first row of the pair
  have hrow : (fun k => val_main_v34 (F := Ideal) x0 x2 x3 x4 x5 (ix2 n k))
      = lnRelu (fun k => x4 (ix1 k)) (fun k => x5 (ix1 k))
          (preCat (fun r k => x0 (ix2 r k)) (fun k c => x2 (ix2 k c)) (fun c => x3 (ix1 c)) (rowOf n) (colOf n)) := by
    funext k
    rw [ref_ln1]
    exact congrArg (fun x => lnRelu _ _ x k) (funext fun c => ref_pre x0 x2 x3 n c)
  -- the pair of flat entry n sits at flat position (n / 1024) · 1024 + n % 1024 = n
  have hidx : ∀ h, (⟨(rowOf n).val * 1024 + (colOf n).val, h⟩ : Fin 1048576) = n := fun _ =>
    Fin.ext (Nat.div_add_mod' n.val 1024)
  -- the result is score · mask · off-diagonal indicator, each factor read at entry n
  rw [val_main_v79_apply, val_main_v78_apply, ref_score, ref_offdiag]
  simp only [ref_ln2, hrow]
  unfold res out score
  simp only [Ideal.mulf_def, hidx]
  rfl

end Cert.ReferenceIdeal.RefValue

end
-- ==== Proof.lean ====
/-
  The certificate of the pairwise edge scorer: a tiled program against its plain reference.

  For every ordered pair (r, s) of the 1024 nodes both programs form a row of 64 pre-activations,
  pass it through LayerNorm, ReLU, a 64 x 64 linear layer, LayerNorm, ReLU and a 64 x 1 linear layer,
  and multiply the score by the pair's mask entry and by 0 on the diagonal r = s, 1 off it.
  The reference forms the row as [emb r ; emb s] · W1 + b1, one contraction over 128 entries; the tiled
  program as (emb r · W1[0:64] + b1) + emb s · W1[64:128], two contractions over 64 entries computed once
  per node on the host and added per pair inside the kernel. A sum over 128 terms is the sum of its two
  halves, and addition of extended reals is commutative and associative, so the rows agree at every input:
  the precondition (finite inputs) is not used by the value claim.

  The tiled program's grid has 8 x 8 points; point (i0, i1) writes tile (i0, i1) of the 1024 x 1024 score
  matrix, whose entry (p, q) is the pair (i0·128 + p, i1·128 + q); the tiles cover the matrix and the host
  line after the launch flattens it, entry n being the pair (n / 1024, n % 1024), which is how the
  reference lays its 1048576 rows out.

  The three frames: the word-level and the idealized tiled program each terminate without a fault with
  their arguments unchanged (the launch side and the body's accesses are checked in the two frame modules);
  the reference's frame is its run with the result dropped. The idealization rewrote nothing, so the
  preservation claim is trivial.
-/
import proofs.«123928_j40724879901154_1_alg».proof.Defs
import proofs.«123928_j40724879901154_1_alg».proof.Proof.Gen.Kernel
import proofs.«123928_j40724879901154_1_alg».proof.Proof.Gen.Kernel.Skeleton
import proofs.«123928_j40724879901154_1_alg».proof.Proof.Gen.Kernel.Launch
import proofs.«123928_j40724879901154_1_alg».proof.Proof.Gen.Kernel.Points
import proofs.«123928_j40724879901154_1_alg».proof.Proof.FrameKernel
import proofs.«123928_j40724879901154_1_alg».proof.Proof.Gen.KernelIdeal
import proofs.«123928_j40724879901154_1_alg».proof.Proof.Gen.KernelIdeal.Skeleton
import proofs.«123928_j40724879901154_1_alg».proof.Proof.Gen.KernelIdeal.Launch
import proofs.«123928_j40724879901154_1_alg».proof.Proof.Gen.KernelIdeal.Points
import proofs.«123928_j40724879901154_1_alg».proof.Proof.FrameKernelIdeal
import proofs.«123928_j40724879901154_1_alg».proof.Proof.Gen.ReferenceIdeal
import proofs.«123928_j40724879901154_1_alg».proof.Proof.Gen.ReferenceIdeal.Run
import proofs.«123928_j40724879901154_1_alg».proof.Proof.Gen.ReferenceIdeal.Read
import proofs.«123928_j40724879901154_1_alg».proof.Proof.Gen.Pre_finite_inputs
import proofs.«123928_j40724879901154_1_alg».proof.Proof.KFinal
import proofs.«123928_j40724879901154_1_alg».proof.Proof.RefRes
import Idealize.ShloMosaic.Adequacy
import Idealize.ShloMosaic.Init

noncomputable section

namespace Cert.Proof

open Idealize.ShloMosaic Idealize.ShloMosaic.ValueIdx Idealize.SL.Sem Cert.EdgeSpec

theorem frame_k : Cert.frame_Kernel := fun m ρ _ => Cert.Kernel.GenP.frame m ρ

theorem frame_ki : Cert.frame_KernelIdeal := fun m ρ _ => Cert.KernelIdeal.GenP.frame m ρ

/-- The reference's frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The tiled program ends at the flat score array over the split first row, the reference at the same array
    over the concatenated first row, of arguments that agree; the two first rows are one. -/
theorem algebraic : Cert.algebraic_KernelIdeal_ReferenceIdeal := by
  intro m ρ m' ρ' _ hagree
  refine ⟨fun c => Cert.KernelIdeal.Final.flat m c, Cert.KernelIdeal.Final.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v79_eq, (hagree c).1, (hagree c).2.1, (hagree c).2.2.1, (hagree c).2.2.2.1, (hagree c).2.2.2.2.1, (hagree c).2.2.2.2.2.1, (hagree c).2.2.2.2.2.2.1, (hagree c).2.2.2.2.2.2.2.1, (hagree c).2.2.2.2.2.2.2.2.1, (hagree c).2.2.2.2.2.2.2.2.2.1, (hagree c).2.2.2.2.2.2.2.2.2.2.1, (hagree c).2.2.2.2.2.2.2.2.2.2.2]
  funext i
  obtain ⟨n, rfl⟩ : ∃ n : Fin 1048576, i = ix1 n := ⟨i 0, eq_ix1 i⟩
  refine (Cert.ReferenceIdeal.RefValue.ref_res _ _ _ _ _ _ _ _ _ _ _ _ n).trans ?_
  show res _ _ _ _ _ _ _ _ _ _ n = Cert.KernelIdeal.Final.pairOut m c (rowOf n) (colOf n)
  unfold res Cert.KernelIdeal.Final.pairOut
  rw [show (preCat (fun r k => m ((c.tc : Thread Cert.KernelIdeal.nD Cert.KernelIdeal.τ).loc Cert.KernelIdeal.main_arg0) (ix2 r k))
        (fun k c' => m ((c.tc : Thread Cert.KernelIdeal.nD Cert.KernelIdeal.τ).loc Cert.KernelIdeal.main_arg2) (ix2 k c'))
        (fun c' => m ((c.tc : Thread Cert.KernelIdeal.nD Cert.KernelIdeal.τ).loc Cert.KernelIdeal.main_arg3) (ix1 c')))
      = preSplit _ _ _ from funext fun r => funext fun s => funext fun c' => preCat_eq_preSplit _ _ _ r s c']

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
